-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg6 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  main_v23

def fn {F : FTy → Type} [FloatOps F] (main_arg0 : FVec F S50000x128 .f32) (main_arg1 : IVec S2x800000 32) (main_arg2 : IVec S50000 32) (main_arg3 : FVec F S3x128x128 .f32) (main_arg4 : FVec F S3x128 .f32) (main_arg5 : FVec F S3x128x128 .f32) (main_arg6 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S50000x512 : Shape := ⟨2, ![50000, 512]⟩
abbrev S5000x512 : Shape := ⟨2, ![5000, 512]⟩
abbrev S50000x1 : Shape := ⟨2, ![50000, 1]⟩

abbrev nBuf : Space → Nat
  | .hbm => 88
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S3x128x128, .f32⟩
  | .hbm, ⟨4, _⟩ => ⟨S3x128, .f32⟩
  | .hbm, ⟨5, _⟩ => ⟨S3x128x128, .f32⟩
  | .hbm, ⟨6, _⟩ => ⟨S3x128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S1x128x128, .f32⟩
  | .hbm, ⟨25, _⟩ => ⟨S128x128, .f32⟩
  | .hbm, ⟨26, _⟩ => ⟨S1x128, .f32⟩
  | .hbm, ⟨27, _⟩ => ⟨S128, .f32⟩
  | .hbm, ⟨28, _⟩ => ⟨S1x128x128, .f32⟩
  | .hbm, ⟨29, _⟩ => ⟨S128x128, .f32⟩
  | .hbm, ⟨30, _⟩ => ⟨S1x128, .f32⟩
  | .hbm, ⟨31, _⟩ => ⟨S128, .f32⟩
  | .hbm, ⟨32, _⟩ => ⟨S1x128, .f32⟩
  | .hbm, ⟨33, _⟩ => ⟨S1x128, .f32⟩
  | .hbm, ⟨34, _⟩ => ⟨S50000x128, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S1x128x128, .f32⟩
  | .hbm, ⟨49, _⟩ => ⟨S128x128, .f32⟩
  | .hbm, ⟨50, _⟩ => ⟨S1x128, .f32⟩
  | .hbm, ⟨51, _⟩ => ⟨S128, .f32⟩
  | .hbm, ⟨52, _⟩ => ⟨S1x128x128, .f32⟩
  | .hbm, ⟨53, _⟩ => ⟨S128x128, .f32⟩
  | .hbm, ⟨54, _⟩ => ⟨S1x128, .f32⟩
  | .hbm, ⟨55, _⟩ => ⟨S128, .f32⟩
  | .hbm, ⟨56, _⟩ => ⟨S1x128, .f32⟩
  | .hbm, ⟨57, _⟩ => ⟨S1x128, .f32⟩
  | .hbm, ⟨58, _⟩ => ⟨S50000x128, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x128, .f32⟩
  | .hbm, ⟨68, _⟩ => ⟨S_, .f32⟩
  | .hbm, ⟨69, _⟩ => ⟨S50000x128, .f32⟩
  | .hbm, ⟨70, _⟩ => ⟨S800000x1, .i32⟩
  | .hbm, ⟨71, _⟩ => ⟨S50000x128, .f32⟩
  | .hbm, ⟨72, _⟩ => ⟨S1x128x128, .f32⟩
  | .hbm, ⟨73, _⟩ => ⟨S128x128, .f32⟩
  | .hbm, ⟨74, _⟩ => ⟨S1x128, .f32⟩
  | .hbm, ⟨75, _⟩ => ⟨S128, .f32⟩
  | .hbm, ⟨76, _⟩ => ⟨S1x128x128, .f32⟩
  | .hbm, ⟨77, _⟩ => ⟨S128x128, .f32⟩
  | .hbm, ⟨78, _⟩ => ⟨S1x128, .f32⟩
  | .hbm, ⟨79, _⟩ => ⟨S128, .f32⟩
  | .hbm, ⟨80, _⟩ => ⟨S1x128, .f32⟩
  | .hbm, ⟨81, _⟩ => ⟨S1x128, .f32⟩
  | .hbm, ⟨82, _⟩ => ⟨S50000x128, .f32⟩
  | .hbm, ⟨83, _⟩ => ⟨S50000x512, .f32⟩
  | .hbm, ⟨84, _⟩ => ⟨S_, .f32⟩
  | .hbm, ⟨85, _⟩ => ⟨S5000x512, .f32⟩
  | .hbm, ⟨86, _⟩ => ⟨S50000x1, .i32⟩
  | .hbm, ⟨87, _⟩ => ⟨S5000x512, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_1 : Ref sig .tc := ⟨.hbm, 35, rfl⟩
abbrev main_v25 : Ref sig .tc := ⟨.hbm, 36, rfl⟩
abbrev main_v26 : Ref sig .tc := ⟨.hbm, 37, rfl⟩
abbrev main_c_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_4 : Ref sig .tc := ⟨.hbm, 59, rfl⟩
abbrev main_v46 : Ref sig .tc := ⟨.hbm, 60, rfl⟩
abbrev main_v47 : Ref sig .tc := ⟨.hbm, 61, rfl⟩
abbrev main_c_5 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_6 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_7 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S50000x128_S50000x128_S50000x128_S50000x128_S50000x512_d1 : Shape.Concatenates [S50000x128, S50000x128, S50000x128, S50000x128] S50000x512 1
  bcast_S_S5000x512 : S_.BroadcastsInDim S5000x512 (![] : Fin 0 → Fin S5000x512.rank)
  bcast_S50000_S50000x1_0 : S50000.BroadcastsInDim S50000x1 (![0] : Fin 1 → Fin S50000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S5000x512_S50000x1_S50000x512_1_0_0_1_wf : ScatterDims.WF S5000x512 S50000x1 S50000x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S5000x512_S50000x1_S50000x512_1_0_0_1 : ScatterDims S5000x512 S50000x1 S50000x512 where
  updateWindowDims := [1]
  insertedWindowDims := [0]
  scatterDimsToOperandDims := [0]
  indexVectorDim := 1
  wf := scatter_S5000x512_S50000x1_S50000x512_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S50000x512 : Shape := ⟨2, ![50000, 512]⟩
abbrev S5000x512 : Shape := ⟨2, ![5000, 512]⟩
abbrev S50000x1 : Shape := ⟨2, ![50000, 1]⟩

abbrev nBuf : Space → Nat
  | .hbm => 115
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S3x128x128, .f32⟩
  | .hbm, ⟨4, _⟩ => ⟨S3x128, .f32⟩
  | .hbm, ⟨5, _⟩ => ⟨S3x128x128, .f32⟩
  | .hbm, ⟨6, _⟩ => ⟨S3x128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S50000x128, .f32⟩
  | .hbm, ⟨25, _⟩ => ⟨S1x128x128, .f32⟩
  | .hbm, ⟨26, _⟩ => ⟨S128x128, .f32⟩
  | .hbm, ⟨27, _⟩ => ⟨S50000x128, .f32⟩
  | .hbm, ⟨28, _⟩ => ⟨S1x128, .f32⟩
  | .hbm, ⟨29, _⟩ => ⟨S128, .f32⟩
  | .hbm, ⟨30, _⟩ => ⟨S1x128, .f32⟩
  | .hbm, ⟨31, _⟩ => ⟨S50000x128, .f32⟩
  | .hbm, ⟨32, _⟩ => ⟨S50000x128, .f32⟩
  | .hbm, ⟨33, _⟩ => ⟨S_, .f32⟩
  | .hbm, ⟨34, _⟩ => ⟨S50000x128, .f32⟩
  | .hbm, ⟨35, _⟩ => ⟨S50000x128, .f32⟩
  | .hbm, ⟨36, _⟩ => ⟨S1x128x128, .f32⟩
  | .hbm, ⟨37, _⟩ => ⟨S128x128, .f32⟩
  | .hbm, ⟨38, _⟩ => ⟨S50000x128, .f32⟩
  | .hbm, ⟨39, _⟩ => ⟨S1x128, .f32⟩
  | .hbm, ⟨40, _⟩ => ⟨S128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S50000x128, .f32⟩
  | .hbm, ⟨58, _⟩ => ⟨S1x128x128, .f32⟩
  | .hbm, ⟨59, _⟩ => ⟨S128x128, .f32⟩
  | .hbm, ⟨60, _⟩ => ⟨S50000x128, .f32⟩
  | .hbm, ⟨61, _⟩ => ⟨S1x128, .f32⟩
  | .hbm, ⟨62, _⟩ => ⟨S128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S1x128x128, .f32⟩
  | .hbm, ⟨70, _⟩ => ⟨S128x128, .f32⟩
  | .hbm, ⟨71, _⟩ => ⟨S50000x128, .f32⟩
  | .hbm, ⟨72, _⟩ => ⟨S1x128, .f32⟩
  | .hbm, ⟨73, _⟩ => ⟨S128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x128, .f32⟩
  | .hbm, ⟨86, _⟩ => ⟨S_, .f32⟩
  | .hbm, ⟨87, _⟩ => ⟨S50000x128, .f32⟩
  | .hbm, ⟨88, _⟩ => ⟨S800000x1, .i32⟩
  | .hbm, ⟨89, _⟩ => ⟨S50000x128, .f32⟩
  | .hbm, ⟨90, _⟩ => ⟨S50000x128, .f32⟩
  | .hbm, ⟨91, _⟩ => ⟨S1x128x128, .f32⟩
  | .hbm, ⟨92, _⟩ => ⟨S128x128, .f32⟩
  | .hbm, ⟨93, _⟩ => ⟨S50000x128, .f32⟩
  | .hbm, ⟨94, _⟩ => ⟨S1x128, .f32⟩
  | .hbm, ⟨95, _⟩ => ⟨S128, .f32⟩
  | .hbm, ⟨96, _⟩ => ⟨S1x128, .f32⟩
  | .hbm, ⟨97, _⟩ => ⟨S50000x128, .f32⟩
  | .hbm, ⟨98, _⟩ => ⟨S50000x128, .f32⟩
  | .hbm, ⟨99, _⟩ => ⟨S_, .f32⟩
  | .hbm, ⟨100, _⟩ => ⟨S50000x128, .f32⟩
  | .hbm, ⟨101, _⟩ => ⟨S50000x128, .f32⟩
  | .hbm, ⟨102, _⟩ => ⟨S1x128x128, .f32⟩
  | .hbm, ⟨103, _⟩ => ⟨S128x128, .f32⟩
  | .hbm, ⟨104, _⟩ => ⟨S50000x128, .f32⟩
  | .hbm, ⟨105, _⟩ => ⟨S1x128, .f32⟩
  | .hbm, ⟨106, _⟩ => ⟨S128, .f32⟩
  | .hbm, ⟨107, _⟩ => ⟨S1x128, .f32⟩
  | .hbm, ⟨108, _⟩ => ⟨S50000x128, .f32⟩
  | .hbm, ⟨109, _⟩ => ⟨S50000x128, .f32⟩
  | .hbm, ⟨110, _⟩ => ⟨S50000x512, .f32⟩
  | .hbm, ⟨111, _⟩ => ⟨S_, .f32⟩
  | .hbm, ⟨112, _⟩ => ⟨S5000x512, .f32⟩
  | .hbm, ⟨113, _⟩ => ⟨S50000x1, .i32⟩
  | .hbm, ⟨114, _⟩ => ⟨S5000x512, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_cst : Ref sig .tc := ⟨.hbm, 33, rfl⟩
abbrev main_call0_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_1 : Ref sig .tc := ⟨.hbm, 44, rfl⟩
abbrev main_v32 : Ref sig .tc := ⟨.hbm, 45, rfl⟩
abbrev main_v33 : Ref sig .tc := ⟨.hbm, 46, rfl⟩
abbrev main_c_2 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_call1_cst : Ref sig .tc := ⟨.hbm, 66, rfl⟩
abbrev main_call1_v0 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_c_4 : Ref sig .tc := ⟨.hbm, 77, rfl⟩
abbrev main_v60 : Ref sig .tc := ⟨.hbm, 78, rfl⟩
abbrev main_v61 : Ref sig .tc := ⟨.hbm, 79, rfl⟩
abbrev main_c_5 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_6 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_call2_cst : Ref sig .tc := ⟨.hbm, 99, rfl⟩
abbrev main_call2_v0 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_7 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S50000x128_S50000x128_S50000x128_S50000x128_S50000x512_d1 : Shape.Concatenates [S50000x128, S50000x128, S50000x128, S50000x128] S50000x512 1
  bcast_S_S5000x512 : S_.BroadcastsInDim S5000x512 (![] : Fin 0 → Fin S5000x512.rank)
  bcast_S50000_S50000x1_0 : S50000.BroadcastsInDim S50000x1 (![0] : Fin 1 → Fin S50000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S5000x512_S50000x1_S50000x512_1_0_0_1_wf : ScatterDims.WF S5000x512 S50000x1 S50000x512 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S5000x512_S50000x1_S50000x512_1_0_0_1 : ScatterDims S5000x512 S50000x1 S50000x512 where
  updateWindowDims := [1]
  insertedWindowDims := [0]
  scatterDimsToOperandDims := [0]
  indexVectorDim := 1
  wf := scatter_S5000x512_S50000x1_S50000x512_1_0_0_1_wf

class Facts : Prop extends Facts₀ where

variable [Facts]
-- ==== Proof.BitsRegion0.lean ====
/-
  Region 0 of @main (the first layer's perceptron, a pipeline of 10 grid points over row tiles of 5000 nodes),
  at ANY float instance and at a PARAMETER `V`, the contents of the core's buffers when the region is entered.

  What is shown here is only what the frame needs and what a value claim can later read off:
  * each input window's staging buffer holds, at every grid point, the window's block of its array — the two
    row-tiled activations fetched afresh at every point, the two weight matrices and two bias rows fetched once at the
    first point and found in place at the later ones (their block index never moves);
  * the body, run on whole staging buffers, reads its six inputs (and, idly, the output buffer), and leaves in the
    output buffer ONE whole-block store of a pure function `k0_pay1` of the six loaded blocks — so the buffer after
    the body is the canonical form `out0_6` of that one piece, which covers the block;
  * with these as the proof data (arrays as entered, inputs left in place, the output at `out0_6` of the point's
    input blocks, nothing owed, whole shares, the invariant only the scoped rest and the generator register), the
    body meets the pipeline's obligation at every grid point.
-/
import proofs.«115844_j7438883357611_1_alg».proof.Proof.Gen.Kernel.Launch
import proofs.«115844_j7438883357611_1_alg».proof.Proof.Gen.Kernel.Skeleton
import proofs.«115844_j7438883357611_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 × 128 entries: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, the block
    index has not moved), for any proof data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (unfetched, the block
    index has not moved), for any proof data whose array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (unfetched, the block
    index has not moved), for any proof data whose array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (unfetched, the block
    index has not moved), for any proof data whose array is the entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (unfetched, the block
    index has not moved), for any proof data whose array is the entry contents and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (unfetched, the block
    index has not moved), for any proof data whose array is the entry contents and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a buffer whole -/

abbrev r0_A : Rect S5000x128 := Rect.unit (s := S5000x128) ![0, 0] S5000x128.size inb_S5000x128_S5000x128_0_0
abbrev r0_W : Rect S128x128 := Rect.unit (s := S128x128) ![0, 0] S128x128.size inb_S128x128_S128x128_0_0
abbrev r0_B : Rect S1x128 := Rect.unit (s := S1x128) ![0, 0] S1x128.size inb_S1x128_S1x128_0_0

/-! ## What the body leaves in the output window's buffer -/

/-- The output buffer after the body, from the six input blocks: its one store as a piece. -/
def out0_6 (x0 x1 : Vec F S5000x128 .f32) (x2 : Vec F S128x128 .f32) (x3 : Vec F S1x128 .f32) (x4 : Vec F S128x128 .f32) (x5 : Vec F S1x128 .f32) : Vec F S5000x128 .f32 :=
  View.canon [⟨r0_A, k0_pay1 (View.ld x0 r0_A) (View.ld x1 r0_A) (View.ld x2 r0_W) (View.ld x3 r0_B) (View.ld x4 r0_W) (View.ld x5 r0_B)⟩]

/-- The one store takes the whole buffer, so it covers it. -/
theorem cover0_6 (p0 : Vec F S5000x128 .f32) (y : S5000x128.Idx) :
    ∃ pc ∈ ([⟨r0_A, p0⟩] : List (View.Piece (Elt F) S5000x128 .f32)), y ∈ pc.1.set :=
  View.cover_of_tiled [⟨r0_A, p0⟩] S5000x128.size (by rfl) y

/-! ## The body's triple -/

set_option maxHeartbeats 1000000 in
/-- The body on whole staging buffers, the inputs' at read contents `x0 … x5` and the output's at anything, runs to the
    continuation holding the inputs' as they were and the output's at `out0_6` of the inputs'. -/
theorem sound_kernel0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S5000x128 .f32) (harg7 : arg7.IsWhole)
    (x0 x1 : Vec F S5000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__gin_mlp_kernel i arg1 harg1 arg2 harg2 arg3 harg3 arg4 harg4 arg5 harg5 arg6 harg6 arg7 harg7) K := by
  simp only [cc0__gin_mlp_kernel_eq_skeleton]; unfold cc0__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of the region's pipeline on core `c`: the arrays as the region finds them; after the body at point
    `t` each input's buffer at its block and the output's at `out0_6` of the input blocks; the invariant the scoped rest
    and the generator register, untouched; nothing owed; whole shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsRegion1.lean ====
/-
  Region 1 of @main (the second layer's perceptron, a pipeline of 10 grid points over row tiles of 5000 nodes),
  at ANY float instance and at a PARAMETER `V`, the contents of the core's buffers when the region is entered.

  What is shown here is only what the frame needs and what a value claim can later read off:
  * each input window's staging buffer holds, at every grid point, the window's block of its array — the two
    row-tiled activations fetched afresh at every point, the two weight matrices and two bias rows fetched once at the
    first point and found in place at the later ones (their block index never moves);
  * the body, run on whole staging buffers, reads its six inputs (and, idly, the output buffer), and leaves in the
    output buffer ONE whole-block store of a pure function `k1_pay1` of the six loaded blocks — so the buffer after
    the body is the canonical form `out1_6` of that one piece, which covers the block;
  * with these as the proof data (arrays as entered, inputs left in place, the output at `out1_6` of the point's
    input blocks, nothing owed, whole shares, the invariant only the scoped rest and the generator register), the
    body meets the pipeline's obligation at every grid point.
-/
import proofs.«115844_j7438883357611_1_alg».proof.Proof.Gen.Kernel.Launch
import proofs.«115844_j7438883357611_1_alg».proof.Proof.Gen.Kernel.Skeleton
import proofs.«115844_j7438883357611_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 × 128 entries: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the block
    index has not moved), for any proof data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the block
    index has not moved), for any proof data whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the block
    index has not moved), for any proof data whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched, the block
    index has not moved), for any proof data whose array is the entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (unfetched, the block
    index has not moved), for any proof data whose array is the entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (unfetched, the block
    index has not moved), for any proof data whose array is the entry contents and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a buffer whole -/

abbrev r1_A : Rect S5000x128 := Rect.unit (s := S5000x128) ![0, 0] S5000x128.size inb_S5000x128_S5000x128_0_0
abbrev r1_W : Rect S128x128 := Rect.unit (s := S128x128) ![0, 0] S128x128.size inb_S128x128_S128x128_0_0
abbrev r1_B : Rect S1x128 := Rect.unit (s := S1x128) ![0, 0] S1x128.size inb_S1x128_S1x128_0_0

/-! ## What the body leaves in the output window's buffer -/

/-- The output buffer after the body, from the six input blocks: its one store as a piece. -/
def out1_6 (x0 x1 : Vec F S5000x128 .f32) (x2 : Vec F S128x128 .f32) (x3 : Vec F S1x128 .f32) (x4 : Vec F S128x128 .f32) (x5 : Vec F S1x128 .f32) : Vec F S5000x128 .f32 :=
  View.canon [⟨r1_A, k1_pay1 (View.ld x0 r1_A) (View.ld x1 r1_A) (View.ld x2 r1_W) (View.ld x3 r1_B) (View.ld x4 r1_W) (View.ld x5 r1_B)⟩]

/-- The one store takes the whole buffer, so it covers it. -/
theorem cover1_6 (p0 : Vec F S5000x128 .f32) (y : S5000x128.Idx) :
    ∃ pc ∈ ([⟨r1_A, p0⟩] : List (View.Piece (Elt F) S5000x128 .f32)), y ∈ pc.1.set :=
  View.cover_of_tiled [⟨r1_A, p0⟩] S5000x128.size (by rfl) y

/-! ## The body's triple -/

set_option maxHeartbeats 1000000 in
/-- The body on whole staging buffers, the inputs' at read contents `x0 … x5` and the output's at anything, runs to the
    continuation holding the inputs' as they were and the output's at `out1_6` of the inputs'. -/
theorem sound_kernel1 (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S5000x128 .f32) (harg7 : arg7.IsWhole)
    (x0 x1 : Vec F S5000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__gin_mlp_kernel i arg1 harg1 arg2 harg2 arg3 harg3 arg4 harg4 arg5 harg5 arg6 harg6 arg7 harg7) K := by
  simp only [cc1__gin_mlp_kernel_eq_skeleton]; unfold cc1__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of the region's pipeline on core `c`: the arrays as the region finds them; after the body at point
    `t` each input's buffer at its block and the output's at `out1_6` of the input blocks; the invariant the scoped rest
    and the generator register, untouched; nothing owed; whole shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRegion2.lean ====
/-
  Region 2 of @main (the third layer's perceptron, a pipeline of 10 grid points over row tiles of 5000 nodes),
  at ANY float instance and at a PARAMETER `V`, the contents of the core's buffers when the region is entered.

  What is shown here is only what the frame needs and what a value claim can later read off:
  * each input window's staging buffer holds, at every grid point, the window's block of its array — the two
    row-tiled activations fetched afresh at every point, the two weight matrices and two bias rows fetched once at the
    first point and found in place at the later ones (their block index never moves);
  * the body, run on whole staging buffers, reads its six inputs (and, idly, the output buffer), and leaves in the
    output buffer ONE whole-block store of a pure function `k2_pay1` of the six loaded blocks — so the buffer after
    the body is the canonical form `out2_6` of that one piece, which covers the block;
  * with these as the proof data (arrays as entered, inputs left in place, the output at `out2_6` of the point's
    input blocks, nothing owed, whole shares, the invariant only the scoped rest and the generator register), the
    body meets the pipeline's obligation at every grid point.
-/
import proofs.«115844_j7438883357611_1_alg».proof.Proof.Gen.Kernel.Launch
import proofs.«115844_j7438883357611_1_alg».proof.Proof.Gen.Kernel.Skeleton
import proofs.«115844_j7438883357611_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 × 128 entries: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (unfetched, the block
    index has not moved), for any proof data whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (unfetched, the block
    index has not moved), for any proof data whose array is the entry contents and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (unfetched, the block
    index has not moved), for any proof data whose array is the entry contents and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (unfetched, the block
    index has not moved), for any proof data whose array is the entry contents and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (unfetched, the block
    index has not moved), for any proof data whose array is the entry contents and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not (unfetched, the block
    index has not moved), for any proof data whose array is the entry contents and whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take a buffer whole -/

abbrev r2_A : Rect S5000x128 := Rect.unit (s := S5000x128) ![0, 0] S5000x128.size inb_S5000x128_S5000x128_0_0
abbrev r2_W : Rect S128x128 := Rect.unit (s := S128x128) ![0, 0] S128x128.size inb_S128x128_S128x128_0_0
abbrev r2_B : Rect S1x128 := Rect.unit (s := S1x128) ![0, 0] S1x128.size inb_S1x128_S1x128_0_0

/-! ## What the body leaves in the output window's buffer -/

/-- The output buffer after the body, from the six input blocks: its one store as a piece. -/
def out2_6 (x0 x1 : Vec F S5000x128 .f32) (x2 : Vec F S128x128 .f32) (x3 : Vec F S1x128 .f32) (x4 : Vec F S128x128 .f32) (x5 : Vec F S1x128 .f32) : Vec F S5000x128 .f32 :=
  View.canon [⟨r2_A, k2_pay1 (View.ld x0 r2_A) (View.ld x1 r2_A) (View.ld x2 r2_W) (View.ld x3 r2_B) (View.ld x4 r2_W) (View.ld x5 r2_B)⟩]

/-- The one store takes the whole buffer, so it covers it. -/
theorem cover2_6 (p0 : Vec F S5000x128 .f32) (y : S5000x128.Idx) :
    ∃ pc ∈ ([⟨r2_A, p0⟩] : List (View.Piece (Elt F) S5000x128 .f32)), y ∈ pc.1.set :=
  View.cover_of_tiled [⟨r2_A, p0⟩] S5000x128.size (by rfl) y

/-! ## The body's triple -/

set_option maxHeartbeats 1000000 in
/-- The body on whole staging buffers, the inputs' at read contents `x0 … x5` and the output's at anything, runs to the
    continuation holding the inputs' as they were and the output's at `out2_6` of the inputs'. -/
theorem sound_kernel2 (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S5000x128 .f32) (harg7 : arg7.IsWhole)
    (x0 x1 : Vec F S5000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__gin_mlp_kernel i arg1 harg1 arg2 harg2 arg3 harg3 arg4 harg4 arg5 harg5 arg6 harg6 arg7 harg7) K := by
  simp only [cc2__gin_mlp_kernel_eq_skeleton]; unfold cc2__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of the region's pipeline on core `c`: the arrays as the region finds them; after the body at point
    `t` each input's buffer at its block and the output's at `out2_6` of the input blocks; the invariant the scoped rest
    and the generator register, untouched; nothing owed; whole shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' buffers hold their blocks, so the triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BitsThread.lean ====
/-
  @main from the launch to the return, at ANY float instance: four stretches of host operations around three kernel
  regions, threaded as seven segments over one thread state — "every unscoped buffer of the core at the boundary's
  contents, the generator register at some state, nothing owed".

  The contents at the eight boundaries are a fold from the launch memory: a host stretch applies its operations'
  pure functions; a region leaves its arrays at what its pipeline's write-backs leave (the inputs as entered, the
  output array block by block) and every other buffer as entered.  The run's post says every unscoped buffer ends
  at the last boundary's contents; the frame claim reads the seven arguments off it (no host operation writes an
  argument and no region's output array is one), and a value claim reads the result buffer off it.
-/
import proofs.«115844_j7438883357611_1_alg».proof.Proof.BitsRegion0
import proofs.«115844_j7438883357611_1_alg».proof.Proof.BitsRegion1
import proofs.«115844_j7438883357611_1_alg».proof.Proof.BitsRegion2
import proofs.«115844_j7438883357611_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the pipeline leaves (the inputs as entered, the output's write-backs
    folded over the grid), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the host stretch `hostOps1`. -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- At region 1's exit: its arrays at what the pipeline leaves (the inputs as entered, the output's write-backs
    folded over the grid), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the host stretch `hostOps2`. -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b
/-- At region 2's exit: its arrays at what the pipeline leaves (the inputs as entered, the output's write-backs
    folded over the grid), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After the host stretch `hostOps3`. -/
abbrev W7 : Dev nD → Valuation τ sig (Elt F) := fun c => StableHlo.after hostOps3 (W6 m ρ c)
/-- The same read at the TensorCore's references. -/
abbrev V7 : (c : Dev nD) → (b : Ref sig .tc) → Buf (Elt F) ((c : Thread nD τ).loc b) := fun c b => W7 m ρ c b

/-! ### What a region leaves alone -/

/-- Region 0 changes no buffer but its output array: an input array is left as entered, any other buffer is none of its. -/
theorem W2_keep (c : Dev nD) (b : Ref sig .tc) (hb : b ≠ main_v24) : W2 m ρ c (Proc.devRef .tc b) = W1 m ρ c (Proc.devRef .tc b) := by
  by_cases h : ∃ w, Pipeline.arrRef spec0 w = b
  · obtain ⟨w, rfl⟩ := h
    have hw : (cfg0.win w).isOut = false := by
      match w with
      | ⟨0, _⟩ => rfl
      | ⟨1, _⟩ => rfl
      | ⟨2, _⟩ => rfl
      | ⟨3, _⟩ => rfl
      | ⟨4, _⟩ => rfl
      | ⟨5, _⟩ => rfl
      | ⟨6, _⟩ => exact absurd rfl hb
    exact (W2_arr m ρ c w).trans (((dat0 (V1 m ρ) c).arrAt_in w hw _).trans (A_eq0 (V1 m ρ) c w))
  · exact W2_of_ne m ρ c b fun w e => h ⟨w, e⟩

/-- Region 1 changes no buffer but its output array: an input array is left as entered, any other buffer is none of its. -/
theorem W4_keep (c : Dev nD) (b : Ref sig .tc) (hb : b ≠ main_v45) : W4 m ρ c (Proc.devRef .tc b) = W3 m ρ c (Proc.devRef .tc b) := by
  by_cases h : ∃ w, Pipeline.arrRef spec1 w = b
  · obtain ⟨w, rfl⟩ := h
    have hw : (cfg1.win w).isOut = false := by
      match w with
      | ⟨0, _⟩ => rfl
      | ⟨1, _⟩ => rfl
      | ⟨2, _⟩ => rfl
      | ⟨3, _⟩ => rfl
      | ⟨4, _⟩ => rfl
      | ⟨5, _⟩ => rfl
      | ⟨6, _⟩ => exact absurd rfl hb
    exact (W4_arr m ρ c w).trans (((dat1 (V3 m ρ) c).arrAt_in w hw _).trans (A_eq1 (V3 m ρ) c w))
  · exact W4_of_ne m ρ c b fun w e => h ⟨w, e⟩

/-- Region 2 changes no buffer but its output array: an input array is left as entered, any other buffer is none of its. -/
theorem W6_keep (c : Dev nD) (b : Ref sig .tc) (hb : b ≠ main_v66) : W6 m ρ c (Proc.devRef .tc b) = W5 m ρ c (Proc.devRef .tc b) := by
  by_cases h : ∃ w, Pipeline.arrRef spec2 w = b
  · obtain ⟨w, rfl⟩ := h
    have hw : (cfg2.win w).isOut = false := by
      match w with
      | ⟨0, _⟩ => rfl
      | ⟨1, _⟩ => rfl
      | ⟨2, _⟩ => rfl
      | ⟨3, _⟩ => rfl
      | ⟨4, _⟩ => rfl
      | ⟨5, _⟩ => rfl
      | ⟨6, _⟩ => exact absurd rfl hb
    exact (W6_arr m ρ c w).trans (((dat2 (V5 m ρ) c).arrAt_in w hw _).trans (A_eq2 (V5 m ρ) c w))
  · exact W6_of_ne m ρ c b fun w e => h ⟨w, e⟩

/-! ### The arguments end as launched -/

/-- A reference no item writes reads through the whole fold back to the launch memory: no host stretch writes it and it
    is no region's output array nor any of its arrays other than an input (an input array is left as entered). -/
theorem W7_of_unwritten (c : Dev nD) (b : Ref sig .tc)
    (h0 : b ∉ hostOps0_W) (h1 : b ∉ hostOps1_W) (h2 : b ∉ hostOps2_W) (h3 : b ∉ hostOps3_W)
    (hr0 : ∀ w, Pipeline.arrRef spec0 w ≠ b) (hr1 : ∀ w, Pipeline.arrRef spec1 w ≠ b) (hr2 : ∀ w, Pipeline.arrRef spec2 w ≠ b) :
    W7 m ρ c (Proc.devRef .tc b) = m ((c : Thread nD τ).loc b) :=
  calc W7 m ρ c (Proc.devRef .tc b)
    _ = W6 m ρ c (Proc.devRef .tc b) := StableHlo.after_of_writes_sub hostOps3 _ hostOps3_writes h3
    _ = W5 m ρ c (Proc.devRef .tc b) := W6_of_ne m ρ c b hr2
    _ = W4 m ρ c (Proc.devRef .tc b) := StableHlo.after_of_writes_sub hostOps2 _ hostOps2_writes h2
    _ = W3 m ρ c (Proc.devRef .tc b) := W4_of_ne m ρ c b hr1
    _ = W2 m ρ c (Proc.devRef .tc b) := StableHlo.after_of_writes_sub hostOps1 _ hostOps1_writes h1
    _ = W1 m ρ c (Proc.devRef .tc b) := W2_of_ne m ρ c b hr0
    _ = W0 m ρ c (Proc.devRef .tc b) := StableHlo.after_of_writes_sub hostOps0 _ hostOps0_writes h0
    _ = m ((c : Thread nD τ).loc b) := rfl

/-- The node features are region 0's first input array: left as entered there, written nowhere else. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
theorem W7_main_arg1 (c : Dev nD) : W7 m ρ c (Proc.devRef .tc main_arg1) = m ((c : Thread nD τ).loc main_arg1) :=
  W7_of_unwritten m ρ c main_arg1 (by decide) (by decide) (by decide) (by decide) (by decide) (by decide) (by decide)
theorem W7_main_arg2 (c : Dev nD) : W7 m ρ c (Proc.devRef .tc main_arg2) = m ((c : Thread nD τ).loc main_arg2) :=
  W7_of_unwritten m ρ c main_arg2 (by decide) (by decide) (by decide) (by decide) (by decide) (by decide) (by decide)
theorem W7_main_arg3 (c : Dev nD) : W7 m ρ c (Proc.devRef .tc main_arg3) = m ((c : Thread nD τ).loc main_arg3) :=
  W7_of_unwritten m ρ c main_arg3 (by decide) (by decide) (by decide) (by decide) (by decide) (by decide) (by decide)
theorem W7_main_arg4 (c : Dev nD) : W7 m ρ c (Proc.devRef .tc main_arg4) = m ((c : Thread nD τ).loc main_arg4) :=
  W7_of_unwritten m ρ c main_arg4 (by decide) (by decide) (by decide) (by decide) (by decide) (by decide) (by decide)
theorem W7_main_arg5 (c : Dev nD) : W7 m ρ c (Proc.devRef .tc main_arg5) = m ((c : Thread nD τ).loc main_arg5) :=
  W7_of_unwritten m ρ c main_arg5 (by decide) (by decide) (by decide) (by decide) (by decide) (by decide) (by decide)
theorem W7_main_arg6 (c : Dev nD) : W7 m ρ c (Proc.devRef .tc main_arg6) = m ((c : Thread nD τ).loc main_arg6) :=
  W7_of_unwritten m ρ c main_arg6 (by decide) (by decide) (by decide) (by decide) (by decide) (by decide) (by decide)

/-! ## The proof data family and the thread state -/

/-- Every pipeline's proof data, each at its region's entry contents: a literal match, so that the pinned configuration at
    a numeral reduces to the printed one. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register
    at some state. -/
abbrev Tₙ (c : Dev nD) : sProp 𝕄 := iprop(StableHlo.held (c : Thread nD τ) (Pipeline.ucRefs τ sig) (W7 m ρ c) ∗ ∃ r, prngReg c r)

/-! ## The regions as segments -/

-- an entailment of a library lemma stated over the pinned configuration unifies with the printed configuration only
-- when unification may unfold plain definitions in a metavariable's type
set_option backward.isDefEq.respectTransparency.types false in
/-- REGION 0 over the thread state: entered with every unscoped buffer at `W1`, left with them at `W2`. Its arrays are
    split out of the unscoped buffers and put back at what the write-backs leave; the generator register goes into the
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- an entailment of a library lemma stated over the pinned configuration unifies with the printed configuration only
-- when unification may unfold plain definitions in a metavariable's type
set_option backward.isDefEq.respectTransparency.types false in
/-- REGION 1 over the thread state: entered with every unscoped buffer at `W3`, left with them at `W4`. Its arrays are
    split out of the unscoped buffers and put back at what the write-backs leave; the generator register goes into the
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- an entailment of a library lemma stated over the pinned configuration unifies with the printed configuration only
-- when unification may unfold plain definitions in a metavariable's type
set_option backward.isDefEq.respectTransparency.types false in
/-- REGION 2 over the thread state: entered with every unscoped buffer at `W5`, left with them at `W6`. Its arrays are
    split out of the unscoped buffers and put back at what the write-backs leave; the generator register goes into the
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev items : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main IS the run of the segments. -/
theorem main_run (c : Dev nD) : main (F := F) c = Pipeline.Seg.run (items m ρ) := (main_chain c).trans (by chain_rfl)

set_option backward.isDefEq.respectTransparency.types false in
/-- THE RUN: from any memory with zero counters every weakly fair execution of @main on the TensorCores terminates,
    nothing faulting, and in every final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- THE FRAME, at any float instance: the run, with each argument's buffer read back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c)⟩) (run_all m ρ)

end Cert.Kernel.Hand

end
-- ==== Proof.Region0.lean ====
/-
  Region 0 of @main (the first layer's perceptron, a pipeline of 10 grid points over row tiles of 5000 nodes),
  at ANY float instance and at a PARAMETER `V`, the contents of the core's buffers when the region is entered.

  What is shown here is only what the frame needs and what a value claim can later read off:
  * each input window's staging buffer holds, at every grid point, the window's block of its array — the two
    row-tiled activations fetched afresh at every point, the two weight matrices and two bias rows fetched once at the
    first point and found in place at the later ones (their block index never moves);
  * the body, run on whole staging buffers, reads its six inputs (and, idly, the output buffer), and leaves in the
    output buffer ONE whole-block store of a pure function `k0_pay1` of the six loaded blocks — so the buffer after
    the body is the canonical form `out0_6` of that one piece, which covers the block;
  * with these as the proof data (arrays as entered, inputs left in place, the output at `out0_6` of the point's
    input blocks, nothing owed, whole shares, the invariant only the scoped rest and the generator register), the
    body meets the pipeline's obligation at every grid point.
-/
import proofs.«115844_j7438883357611_1_alg».proof.Proof.Gen.KernelIdeal.Launch
import proofs.«115844_j7438883357611_1_alg».proof.Proof.Gen.KernelIdeal.Skeleton
import proofs.«115844_j7438883357611_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 × 128 entries: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, the block
    index has not moved), for any proof data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (unfetched, the block
    index has not moved), for any proof data whose array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (unfetched, the block
    index has not moved), for any proof data whose array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (unfetched, the block
    index has not moved), for any proof data whose array is the entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (unfetched, the block
    index has not moved), for any proof data whose array is the entry contents and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (unfetched, the block
    index has not moved), for any proof data whose array is the entry contents and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a buffer whole -/

abbrev r0_A : Rect S5000x128 := Rect.unit (s := S5000x128) ![0, 0] S5000x128.size inb_S5000x128_S5000x128_0_0
abbrev r0_W : Rect S128x128 := Rect.unit (s := S128x128) ![0, 0] S128x128.size inb_S128x128_S128x128_0_0
abbrev r0_B : Rect S1x128 := Rect.unit (s := S1x128) ![0, 0] S1x128.size inb_S1x128_S1x128_0_0

/-! ## What the body leaves in the output window's buffer -/

/-- The output buffer after the body, from the six input blocks: its one store as a piece. -/
def out0_6 (x0 x1 : Vec F S5000x128 .f32) (x2 : Vec F S128x128 .f32) (x3 : Vec F S1x128 .f32) (x4 : Vec F S128x128 .f32) (x5 : Vec F S1x128 .f32) : Vec F S5000x128 .f32 :=
  View.canon [⟨r0_A, k0_pay1 (View.ld x0 r0_A) (View.ld x1 r0_A) (View.ld x2 r0_W) (View.ld x3 r0_B) (View.ld x4 r0_W) (View.ld x5 r0_B)⟩]

/-- The one store takes the whole buffer, so it covers it. -/
theorem cover0_6 (p0 : Vec F S5000x128 .f32) (y : S5000x128.Idx) :
    ∃ pc ∈ ([⟨r0_A, p0⟩] : List (View.Piece (Elt F) S5000x128 .f32)), y ∈ pc.1.set :=
  View.cover_of_tiled [⟨r0_A, p0⟩] S5000x128.size (by rfl) y

/-! ## The body's triple -/

set_option maxHeartbeats 1000000 in
/-- The body on whole staging buffers, the inputs' at read contents `x0 … x5` and the output's at anything, runs to the
    continuation holding the inputs' as they were and the output's at `out0_6` of the inputs'. -/
theorem sound_kernel0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S5000x128 .f32) (harg7 : arg7.IsWhole)
    (x0 x1 : Vec F S5000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__gin_mlp_kernel i arg1 harg1 arg2 harg2 arg3 harg3 arg4 harg4 arg5 harg5 arg6 harg6 arg7 harg7) K := by
  simp only [cc0__gin_mlp_kernel_eq_skeleton]; unfold cc0__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of the region's pipeline on core `c`: the arrays as the region finds them; after the body at point
    `t` each input's buffer at its block and the output's at `out0_6` of the input blocks; the invariant the scoped rest
    and the generator register, untouched; nothing owed; whole shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1.lean ====
/-
  Region 1 of @main (the second layer's perceptron, a pipeline of 10 grid points over row tiles of 5000 nodes),
  at ANY float instance and at a PARAMETER `V`, the contents of the core's buffers when the region is entered.

  What is shown here is only what the frame needs and what a value claim can later read off:
  * each input window's staging buffer holds, at every grid point, the window's block of its array — the two
    row-tiled activations fetched afresh at every point, the two weight matrices and two bias rows fetched once at the
    first point and found in place at the later ones (their block index never moves);
  * the body, run on whole staging buffers, reads its six inputs (and, idly, the output buffer), and leaves in the
    output buffer ONE whole-block store of a pure function `k1_pay1` of the six loaded blocks — so the buffer after
    the body is the canonical form `out1_6` of that one piece, which covers the block;
  * with these as the proof data (arrays as entered, inputs left in place, the output at `out1_6` of the point's
    input blocks, nothing owed, whole shares, the invariant only the scoped rest and the generator register), the
    body meets the pipeline's obligation at every grid point.
-/
import proofs.«115844_j7438883357611_1_alg».proof.Proof.Gen.KernelIdeal.Launch
import proofs.«115844_j7438883357611_1_alg».proof.Proof.Gen.KernelIdeal.Skeleton
import proofs.«115844_j7438883357611_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 × 128 entries: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the block
    index has not moved), for any proof data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the block
    index has not moved), for any proof data whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the block
    index has not moved), for any proof data whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched, the block
    index has not moved), for any proof data whose array is the entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (unfetched, the block
    index has not moved), for any proof data whose array is the entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (unfetched, the block
    index has not moved), for any proof data whose array is the entry contents and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a buffer whole -/

abbrev r1_A : Rect S5000x128 := Rect.unit (s := S5000x128) ![0, 0] S5000x128.size inb_S5000x128_S5000x128_0_0
abbrev r1_W : Rect S128x128 := Rect.unit (s := S128x128) ![0, 0] S128x128.size inb_S128x128_S128x128_0_0
abbrev r1_B : Rect S1x128 := Rect.unit (s := S1x128) ![0, 0] S1x128.size inb_S1x128_S1x128_0_0

/-! ## What the body leaves in the output window's buffer -/

/-- The output buffer after the body, from the six input blocks: its one store as a piece. -/
def out1_6 (x0 x1 : Vec F S5000x128 .f32) (x2 : Vec F S128x128 .f32) (x3 : Vec F S1x128 .f32) (x4 : Vec F S128x128 .f32) (x5 : Vec F S1x128 .f32) : Vec F S5000x128 .f32 :=
  View.canon [⟨r1_A, k1_pay1 (View.ld x0 r1_A) (View.ld x1 r1_A) (View.ld x2 r1_W) (View.ld x3 r1_B) (View.ld x4 r1_W) (View.ld x5 r1_B)⟩]

/-- The one store takes the whole buffer, so it covers it. -/
theorem cover1_6 (p0 : Vec F S5000x128 .f32) (y : S5000x128.Idx) :
    ∃ pc ∈ ([⟨r1_A, p0⟩] : List (View.Piece (Elt F) S5000x128 .f32)), y ∈ pc.1.set :=
  View.cover_of_tiled [⟨r1_A, p0⟩] S5000x128.size (by rfl) y

/-! ## The body's triple -/

set_option maxHeartbeats 1000000 in
/-- The body on whole staging buffers, the inputs' at read contents `x0 … x5` and the output's at anything, runs to the
    continuation holding the inputs' as they were and the output's at `out1_6` of the inputs'. -/
theorem sound_kernel1 (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S5000x128 .f32) (harg7 : arg7.IsWhole)
    (x0 x1 : Vec F S5000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__gin_mlp_kernel i arg1 harg1 arg2 harg2 arg3 harg3 arg4 harg4 arg5 harg5 arg6 harg6 arg7 harg7) K := by
  simp only [cc1__gin_mlp_kernel_eq_skeleton]; unfold cc1__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of the region's pipeline on core `c`: the arrays as the region finds them; after the body at point
    `t` each input's buffer at its block and the output's at `out1_6` of the input blocks; the invariant the scoped rest
    and the generator register, untouched; nothing owed; whole shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Region2.lean ====
/-
  Region 2 of @main (the third layer's perceptron, a pipeline of 10 grid points over row tiles of 5000 nodes),
  at ANY float instance and at a PARAMETER `V`, the contents of the core's buffers when the region is entered.

  What is shown here is only what the frame needs and what a value claim can later read off:
  * each input window's staging buffer holds, at every grid point, the window's block of its array — the two
    row-tiled activations fetched afresh at every point, the two weight matrices and two bias rows fetched once at the
    first point and found in place at the later ones (their block index never moves);
  * the body, run on whole staging buffers, reads its six inputs (and, idly, the output buffer), and leaves in the
    output buffer ONE whole-block store of a pure function `k2_pay1` of the six loaded blocks — so the buffer after
    the body is the canonical form `out2_6` of that one piece, which covers the block;
  * with these as the proof data (arrays as entered, inputs left in place, the output at `out2_6` of the point's
    input blocks, nothing owed, whole shares, the invariant only the scoped rest and the generator register), the
    body meets the pipeline's obligation at every grid point.
-/
import proofs.«115844_j7438883357611_1_alg».proof.Proof.Gen.KernelIdeal.Launch
import proofs.«115844_j7438883357611_1_alg».proof.Proof.Gen.KernelIdeal.Skeleton
import proofs.«115844_j7438883357611_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 × 128 entries: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (unfetched, the block
    index has not moved), for any proof data whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (unfetched, the block
    index has not moved), for any proof data whose array is the entry contents and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (unfetched, the block
    index has not moved), for any proof data whose array is the entry contents and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (unfetched, the block
    index has not moved), for any proof data whose array is the entry contents and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (unfetched, the block
    index has not moved), for any proof data whose array is the entry contents and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not (unfetched, the block
    index has not moved), for any proof data whose array is the entry contents and whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take a buffer whole -/

abbrev r2_A : Rect S5000x128 := Rect.unit (s := S5000x128) ![0, 0] S5000x128.size inb_S5000x128_S5000x128_0_0
abbrev r2_W : Rect S128x128 := Rect.unit (s := S128x128) ![0, 0] S128x128.size inb_S128x128_S128x128_0_0
abbrev r2_B : Rect S1x128 := Rect.unit (s := S1x128) ![0, 0] S1x128.size inb_S1x128_S1x128_0_0

/-! ## What the body leaves in the output window's buffer -/

/-- The output buffer after the body, from the six input blocks: its one store as a piece. -/
def out2_6 (x0 x1 : Vec F S5000x128 .f32) (x2 : Vec F S128x128 .f32) (x3 : Vec F S1x128 .f32) (x4 : Vec F S128x128 .f32) (x5 : Vec F S1x128 .f32) : Vec F S5000x128 .f32 :=
  View.canon [⟨r2_A, k2_pay1 (View.ld x0 r2_A) (View.ld x1 r2_A) (View.ld x2 r2_W) (View.ld x3 r2_B) (View.ld x4 r2_W) (View.ld x5 r2_B)⟩]

/-- The one store takes the whole buffer, so it covers it. -/
theorem cover2_6 (p0 : Vec F S5000x128 .f32) (y : S5000x128.Idx) :
    ∃ pc ∈ ([⟨r2_A, p0⟩] : List (View.Piece (Elt F) S5000x128 .f32)), y ∈ pc.1.set :=
  View.cover_of_tiled [⟨r2_A, p0⟩] S5000x128.size (by rfl) y

/-! ## The body's triple -/

set_option maxHeartbeats 1000000 in
/-- The body on whole staging buffers, the inputs' at read contents `x0 … x5` and the output's at anything, runs to the
    continuation holding the inputs' as they were and the output's at `out2_6` of the inputs'. -/
theorem sound_kernel2 (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S5000x128 .f32) (harg7 : arg7.IsWhole)
    (x0 x1 : Vec F S5000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__gin_mlp_kernel i arg1 harg1 arg2 harg2 arg3 harg3 arg4 harg4 arg5 harg5 arg6 harg6 arg7 harg7) K := by
  simp only [cc2__gin_mlp_kernel_eq_skeleton]; unfold cc2__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of the region's pipeline on core `c`: the arrays as the region finds them; after the body at point
    `t` each input's buffer at its block and the output's at `out2_6` of the input blocks; the invariant the scoped rest
    and the generator register, untouched; nothing owed; whole shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' buffers hold their blocks, so the triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Thread.lean ====
/-
  @main from the launch to the return, at ANY float instance: four stretches of host operations around three kernel
  regions, threaded as seven segments over one thread state — "every unscoped buffer of the core at the boundary's
  contents, the generator register at some state, nothing owed".

  The contents at the eight boundaries are a fold from the launch memory: a host stretch applies its operations'
  pure functions; a region leaves its arrays at what its pipeline's write-backs leave (the inputs as entered, the
  output array block by block) and every other buffer as entered.  The run's post says every unscoped buffer ends
  at the last boundary's contents; the frame claim reads the seven arguments off it (no host operation writes an
  argument and no region's output array is one), and a value claim reads the result buffer off it.
-/
import proofs.«115844_j7438883357611_1_alg».proof.Proof.Region0
import proofs.«115844_j7438883357611_1_alg».proof.Proof.Region1
import proofs.«115844_j7438883357611_1_alg».proof.Proof.Region2
import proofs.«115844_j7438883357611_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the pipeline leaves (the inputs as entered, the output's write-backs
    folded over the grid), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the host stretch `hostOps1`. -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- At region 1's exit: its arrays at what the pipeline leaves (the inputs as entered, the output's write-backs
    folded over the grid), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the host stretch `hostOps2`. -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b
/-- At region 2's exit: its arrays at what the pipeline leaves (the inputs as entered, the output's write-backs
    folded over the grid), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After the host stretch `hostOps3`. -/
abbrev W7 : Dev nD → Valuation τ sig (Elt F) := fun c => StableHlo.after hostOps3 (W6 m ρ c)
/-- The same read at the TensorCore's references. -/
abbrev V7 : (c : Dev nD) → (b : Ref sig .tc) → Buf (Elt F) ((c : Thread nD τ).loc b) := fun c b => W7 m ρ c b

/-! ### What a region leaves alone -/

/-- Region 0 changes no buffer but its output array: an input array is left as entered, any other buffer is none of its. -/
theorem W2_keep (c : Dev nD) (b : Ref sig .tc) (hb : b ≠ main_v24) : W2 m ρ c (Proc.devRef .tc b) = W1 m ρ c (Proc.devRef .tc b) := by
  by_cases h : ∃ w, Pipeline.arrRef spec0 w = b
  · obtain ⟨w, rfl⟩ := h
    have hw : (cfg0.win w).isOut = false := by
      match w with
      | ⟨0, _⟩ => rfl
      | ⟨1, _⟩ => rfl
      | ⟨2, _⟩ => rfl
      | ⟨3, _⟩ => rfl
      | ⟨4, _⟩ => rfl
      | ⟨5, _⟩ => rfl
      | ⟨6, _⟩ => exact absurd rfl hb
    exact (W2_arr m ρ c w).trans (((dat0 (V1 m ρ) c).arrAt_in w hw _).trans (A_eq0 (V1 m ρ) c w))
  · exact W2_of_ne m ρ c b fun w e => h ⟨w, e⟩

/-- Region 1 changes no buffer but its output array: an input array is left as entered, any other buffer is none of its. -/
theorem W4_keep (c : Dev nD) (b : Ref sig .tc) (hb : b ≠ main_v45) : W4 m ρ c (Proc.devRef .tc b) = W3 m ρ c (Proc.devRef .tc b) := by
  by_cases h : ∃ w, Pipeline.arrRef spec1 w = b
  · obtain ⟨w, rfl⟩ := h
    have hw : (cfg1.win w).isOut = false := by
      match w with
      | ⟨0, _⟩ => rfl
      | ⟨1, _⟩ => rfl
      | ⟨2, _⟩ => rfl
      | ⟨3, _⟩ => rfl
      | ⟨4, _⟩ => rfl
      | ⟨5, _⟩ => rfl
      | ⟨6, _⟩ => exact absurd rfl hb
    exact (W4_arr m ρ c w).trans (((dat1 (V3 m ρ) c).arrAt_in w hw _).trans (A_eq1 (V3 m ρ) c w))
  · exact W4_of_ne m ρ c b fun w e => h ⟨w, e⟩

/-- Region 2 changes no buffer but its output array: an input array is left as entered, any other buffer is none of its. -/
theorem W6_keep (c : Dev nD) (b : Ref sig .tc) (hb : b ≠ main_v66) : W6 m ρ c (Proc.devRef .tc b) = W5 m ρ c (Proc.devRef .tc b) := by
  by_cases h : ∃ w, Pipeline.arrRef spec2 w = b
  · obtain ⟨w, rfl⟩ := h
    have hw : (cfg2.win w).isOut = false := by
      match w with
      | ⟨0, _⟩ => rfl
      | ⟨1, _⟩ => rfl
      | ⟨2, _⟩ => rfl
      | ⟨3, _⟩ => rfl
      | ⟨4, _⟩ => rfl
      | ⟨5, _⟩ => rfl
      | ⟨6, _⟩ => exact absurd rfl hb
    exact (W6_arr m ρ c w).trans (((dat2 (V5 m ρ) c).arrAt_in w hw _).trans (A_eq2 (V5 m ρ) c w))
  · exact W6_of_ne m ρ c b fun w e => h ⟨w, e⟩

/-! ### The arguments end as launched -/

/-- A reference no item writes reads through the whole fold back to the launch memory: no host stretch writes it and it
    is no region's output array nor any of its arrays other than an input (an input array is left as entered). -/
theorem W7_of_unwritten (c : Dev nD) (b : Ref sig .tc)
    (h0 : b ∉ hostOps0_W) (h1 : b ∉ hostOps1_W) (h2 : b ∉ hostOps2_W) (h3 : b ∉ hostOps3_W)
    (hr0 : ∀ w, Pipeline.arrRef spec0 w ≠ b) (hr1 : ∀ w, Pipeline.arrRef spec1 w ≠ b) (hr2 : ∀ w, Pipeline.arrRef spec2 w ≠ b) :
    W7 m ρ c (Proc.devRef .tc b) = m ((c : Thread nD τ).loc b) :=
  calc W7 m ρ c (Proc.devRef .tc b)
    _ = W6 m ρ c (Proc.devRef .tc b) := StableHlo.after_of_writes_sub hostOps3 _ hostOps3_writes h3
    _ = W5 m ρ c (Proc.devRef .tc b) := W6_of_ne m ρ c b hr2
    _ = W4 m ρ c (Proc.devRef .tc b) := StableHlo.after_of_writes_sub hostOps2 _ hostOps2_writes h2
    _ = W3 m ρ c (Proc.devRef .tc b) := W4_of_ne m ρ c b hr1
    _ = W2 m ρ c (Proc.devRef .tc b) := StableHlo.after_of_writes_sub hostOps1 _ hostOps1_writes h1
    _ = W1 m ρ c (Proc.devRef .tc b) := W2_of_ne m ρ c b hr0
    _ = W0 m ρ c (Proc.devRef .tc b) := StableHlo.after_of_writes_sub hostOps0 _ hostOps0_writes h0
    _ = m ((c : Thread nD τ).loc b) := rfl

/-- The node features are region 0's first input array: left as entered there, written nowhere else. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
theorem W7_main_arg1 (c : Dev nD) : W7 m ρ c (Proc.devRef .tc main_arg1) = m ((c : Thread nD τ).loc main_arg1) :=
  W7_of_unwritten m ρ c main_arg1 (by decide) (by decide) (by decide) (by decide) (by decide) (by decide) (by decide)
theorem W7_main_arg2 (c : Dev nD) : W7 m ρ c (Proc.devRef .tc main_arg2) = m ((c : Thread nD τ).loc main_arg2) :=
  W7_of_unwritten m ρ c main_arg2 (by decide) (by decide) (by decide) (by decide) (by decide) (by decide) (by decide)
theorem W7_main_arg3 (c : Dev nD) : W7 m ρ c (Proc.devRef .tc main_arg3) = m ((c : Thread nD τ).loc main_arg3) :=
  W7_of_unwritten m ρ c main_arg3 (by decide) (by decide) (by decide) (by decide) (by decide) (by decide) (by decide)
theorem W7_main_arg4 (c : Dev nD) : W7 m ρ c (Proc.devRef .tc main_arg4) = m ((c : Thread nD τ).loc main_arg4) :=
  W7_of_unwritten m ρ c main_arg4 (by decide) (by decide) (by decide) (by decide) (by decide) (by decide) (by decide)
theorem W7_main_arg5 (c : Dev nD) : W7 m ρ c (Proc.devRef .tc main_arg5) = m ((c : Thread nD τ).loc main_arg5) :=
  W7_of_unwritten m ρ c main_arg5 (by decide) (by decide) (by decide) (by decide) (by decide) (by decide) (by decide)
theorem W7_main_arg6 (c : Dev nD) : W7 m ρ c (Proc.devRef .tc main_arg6) = m ((c : Thread nD τ).loc main_arg6) :=
  W7_of_unwritten m ρ c main_arg6 (by decide) (by decide) (by decide) (by decide) (by decide) (by decide) (by decide)

/-! ## The proof data family and the thread state -/

/-- Every pipeline's proof data, each at its region's entry contents: a literal match, so that the pinned configuration at
    a numeral reduces to the printed one. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register
    at some state. -/
abbrev Tₙ (c : Dev nD) : sProp 𝕄 := iprop(StableHlo.held (c : Thread nD τ) (Pipeline.ucRefs τ sig) (W7 m ρ c) ∗ ∃ r, prngReg c r)

/-! ## The regions as segments -/

-- an entailment of a library lemma stated over the pinned configuration unifies with the printed configuration only
-- when unification may unfold plain definitions in a metavariable's type
set_option backward.isDefEq.respectTransparency.types false in
/-- REGION 0 over the thread state: entered with every unscoped buffer at `W1`, left with them at `W2`. Its arrays are
    split out of the unscoped buffers and put back at what the write-backs leave; the generator register goes into the
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- an entailment of a library lemma stated over the pinned configuration unifies with the printed configuration only
-- when unification may unfold plain definitions in a metavariable's type
set_option backward.isDefEq.respectTransparency.types false in
/-- REGION 1 over the thread state: entered with every unscoped buffer at `W3`, left with them at `W4`. Its arrays are
    split out of the unscoped buffers and put back at what the write-backs leave; the generator register goes into the
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- an entailment of a library lemma stated over the pinned configuration unifies with the printed configuration only
-- when unification may unfold plain definitions in a metavariable's type
set_option backward.isDefEq.respectTransparency.types false in
/-- REGION 2 over the thread state: entered with every unscoped buffer at `W5`, left with them at `W6`. Its arrays are
    split out of the unscoped buffers and put back at what the write-backs leave; the generator register goes into the
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev items : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main IS the run of the segments. -/
theorem main_run (c : Dev nD) : main (F := F) c = Pipeline.Seg.run (items m ρ) := (main_chain c).trans (by chain_rfl)

set_option backward.isDefEq.respectTransparency.types false in
/-- THE RUN: from any memory with zero counters every weakly fair execution of @main on the TensorCores terminates,
    nothing faulting, and in every final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- THE FRAME, at any float instance: the run, with each argument's buffer read back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c)⟩) (run_all m ρ)

end Cert.KernelIdeal.Hand

end
-- ==== Proof.Spec.lean ====
/-
  The arithmetic of one graph-isomorphism layer's perceptron, at one node row and one output feature,
  over the extended reals: the row vector `z` (a node's features plus the sum over its in-neighbours)
  goes through a first affine map `z·W₁ + b₁`, is clipped below at the zero word, and goes through a
  second affine map `·W₂ + b₂`.  Both programs compute exactly this number at every (row, feature):
  the kernel one block of 5000 rows at a time, the reference on the whole array of 50000 rows.
-/
import Idealize.ShloMosaic.PureOps.Ideal
import Idealize.ShloMosaic.Lib.ValueIdx

noncomputable section

open scoped BigOperators

namespace Cert.Spec

open Idealize.ShloMosaic

/-- `(Σₖ max (Σₖ' z k' · w₁ k' k + b₁ k) 0 · w₂ k q) + b₂ q`, the zero being the float word `0x00000000`
    as both programs spell it. -/
def mlpAt (z : Fin 128 → EReal) (w1 : Fin 128 → Fin 128 → EReal) (b1 : Fin 128 → EReal)
    (w2 : Fin 128 → Fin 128 → EReal) (b2 : Fin 128 → EReal) (q : Fin 128) : EReal :=
  (∑ k : Fin 128, max ((∑ k' : Fin 128, z k' * w1 k' k) + b1 k) (Ideal.ofBits .f32 0x00000000#32) * w2 k q) + b2 q

/-- The layer on whole arrays: node features `h` and aggregated neighbour features `a` (50000 rows of 128), two
    128 × 128 weight matrices and two bias ROWS (shape 1 × 128); entry (r, q) is `mlpAt` of row r of `h + a`. -/
def layerArr (h a : (⟨2, ![50000, 128]⟩ : Shape).Idx → EReal) (w1 : (⟨2, ![128, 128]⟩ : Shape).Idx → EReal)
    (b1 : (⟨2, ![1, 128]⟩ : Shape).Idx → EReal) (w2 : (⟨2, ![128, 128]⟩ : Shape).Idx → EReal)
    (b2 : (⟨2, ![1, 128]⟩ : Shape).Idx → EReal) : (⟨2, ![50000, 128]⟩ : Shape).Idx → EReal :=
  fun i => mlpAt (fun k' => h (ValueIdx.ix2 (i 0) k') + a (ValueIdx.ix2 (i 0) k')) (fun k' k => w1 (ValueIdx.ix2 k' k))
    (fun k => b1 (ValueIdx.ix2 (0 : Fin 1) k)) (fun k q' => w2 (ValueIdx.ix2 k q')) (fun q' => b2 (ValueIdx.ix2 (0 : Fin 1) q')) (i 1)

end Cert.Spec

end
-- ==== Proof.RefLayer.lean ====
/-
  One layer of the reference, read at an index.  On the whole array of 50000 node rows the reference
  computes, three times over,

      ((h + a) · W₁ + b₁) clipped below at zero, then · W₂ + b₂,

  where h holds the node features and a the sums over each node's in-neighbours, the products are matrix
  products contracting the 128 features, each bias vector of 128 entries is laid out as one row and
  repeated down the 50000 rows, and the clip compares with the scalar zero word spread over the array.
  At row r and feature q this is the specification's number for the row vector h (r, ·) + a (r, ·).
-/
import proofs.«115844_j7438883357611_1_alg».proof.ReferenceIdeal
import proofs.«115844_j7438883357611_1_alg».proof.Proof.Gen.ReferenceIdeal
import proofs.«115844_j7438883357611_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.Layer

open Cert.ReferenceIdeal Cert.ReferenceIdeal.Gen Idealize.ShloMosaic

variable {F : FTy → Type} [FloatOps F]

/-- One layer of the reference, on the whole array of 50000 rows: the node features plus the neighbour
    sums, times W₁, plus the bias b₁ repeated down the rows, clipped below at zero, times W₂, plus the
    bias b₂ repeated down the rows. -/
def refLayer (h a : (⟨S50000x128, .f32⟩ : BufTy).Contents (Elt F)) (w1 : (⟨S128x128, .f32⟩ : BufTy).Contents (Elt F)) (b1 : (⟨S128, .f32⟩ : BufTy).Contents (Elt F)) (w2 : (⟨S128x128, .f32⟩ : BufTy).Contents (Elt F)) (b2 : (⟨S128, .f32⟩ : BufTy).Contents (Elt F)) : (⟨S50000x128, .f32⟩ : BufTy).Contents (Elt F) :=
  addf (Host.dotGeneral dot_S50000x128_S128x128_S50000x128_1_0_0_1_n_n none (maximumf (addf (Host.dotGeneral dot_S50000x128_S128x128_S50000x128_1_0_0_1_n_n none (addf h a) w1) (broadcastInDim S50000x128 ![0, 1] bcast_S1x128_S50000x128_0_1 (broadcastInDim S1x128 ![1] bcast_S128_S1x128_1 b1))) (broadcastInDim S50000x128 ![] bcast_S_S50000x128 (constant S_ .f32 0x00000000#32))) w2) (broadcastInDim S50000x128 ![0, 1] bcast_S1x128_S50000x128_0_1 (broadcastInDim S1x128 ![1] bcast_S128_S1x128_1 b2))

/-! ## The matrix product at an index

The reference's product contracts axis 1 of the left operand with axis 0 of the right one. At the output
index (r, q) and the contraction coordinate k its left index is (r, k) and its right index (k, q): the
four coordinate facts below, one per operand axis; then the product is the plain sum over k : Fin 128. -/

theorem lhs_0 (i : S50000x128.Idx) (c : dot_S50000x128_S128x128_S50000x128_1_0_0_1_n_n.contr.Idx) :
    (dot_S50000x128_S128x128_S50000x128_1_0_0_1_n_n.lhsIdx i c 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhs_1 (i : S50000x128.Idx) (c : dot_S50000x128_S128x128_S50000x128_1_0_0_1_n_n.contr.Idx) :
    (dot_S50000x128_S128x128_S50000x128_1_0_0_1_n_n.lhsIdx i c 1).val = (c ⟨0, by decide⟩).val :=
  dot_S50000x128_S128x128_S50000x128_1_0_0_1_n_n.lhsIdx_val_of_single rfl i c
theorem rhs_0 (i : S50000x128.Idx) (c : dot_S50000x128_S128x128_S50000x128_1_0_0_1_n_n.contr.Idx) :
    (dot_S50000x128_S128x128_S50000x128_1_0_0_1_n_n.rhsIdx i c 0).val = (c ⟨0, by decide⟩).val :=
  dot_S50000x128_S128x128_S50000x128_1_0_0_1_n_n.rhsIdx_val_of_single rfl i c
theorem rhs_1 (i : S50000x128.Idx) (c : dot_S50000x128_S128x128_S50000x128_1_0_0_1_n_n.contr.Idx) :
    (dot_S50000x128_S128x128_S50000x128_1_0_0_1_n_n.rhsIdx i c 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The product of the 50000×128 array with a 128×128 matrix, read at (r, q): the sum over k of
    a (r, k) · b (k, q). -/
theorem dotGeneral_ix2 (a : FVec Ideal S50000x128 .f32) (b : FVec Ideal S128x128 .f32) (r : Fin 50000) (q : Fin 128) :
    Host.dotGeneral (F := Ideal) dot_S50000x128_S128x128_S50000x128_1_0_0_1_n_n none a b (ValueIdx.ix2 r q)
      = ∑ k : Fin 128, a (ValueIdx.ix2 r k) * b (ValueIdx.ix2 k q) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ValueIdx.ix2 r q) ((ValueIdx.contrEquiv1 dot_S50000x128_S128x128_S50000x128_1_0_0_1_n_n 128 rfl rfl).symm k) = ValueIdx.ix2 r k := funext fun d => Fin.ext (by
    match d with
    | ⟨0, _⟩ => exact lhs_0 _ _
    | ⟨1, _⟩ => exact (lhs_1 _ _).trans hk)
  have er : dot_S50000x128_S128x128_S50000x128_1_0_0_1_n_n.rhsIdx (ValueIdx.ix2 r q) ((ValueIdx.contrEquiv1 dot_S50000x128_S128x128_S50000x128_1_0_0_1_n_n 128 rfl rfl).symm k) = ValueIdx.ix2 k q := funext fun d => Fin.ext (by
    match d with
    | ⟨0, _⟩ => exact (rhs_0 _ _).trans hk
    | ⟨1, _⟩ => exact rhs_1 _ _)
  rw [el, er]

/-! ## The two broadcasts at an index -/

/-- A bias vector of 128 entries, laid out as one row and then repeated down the 50000 rows, reads at
    (r, q) its entry q. -/
theorem biasRows_apply (b : (⟨S128, .f32⟩ : BufTy).Contents (Elt F)) (r : Fin 50000) (q : Fin 128) :
    broadcastInDim S50000x128 ![0, 1] bcast_S1x128_S50000x128_0_1 (broadcastInDim S1x128 ![1] bcast_S128_S1x128_1 b) (ValueIdx.ix2 r q)
      = b (ValueIdx.ix1 q) := by
  refine (broadcastInDim_apply _ bcast_S1x128_S50000x128_0_1 _ (ValueIdx.ix2 r q) (ValueIdx.ix2 (0 : Fin 1) q) (fun d => ?_)).trans ?_
  · match d with
    | ⟨0, _⟩ => show 0 = if (1 : Nat) = 1 then 0 else r.val; rw [if_pos rfl]
    | ⟨1, _⟩ => show q.val = if (128 : Nat) = 1 then 0 else q.val; rw [if_neg (by decide)]
  · exact broadcastInDim_apply _ bcast_S128_S1x128_1 b (ValueIdx.ix2 (0 : Fin 1) q) (ValueIdx.ix1 q) (fun d => match d with
      | ⟨0, _⟩ => by show q.val = if (128 : Nat) = 1 then 0 else q.val; rw [if_neg (by decide)])

/-- The scalar zero word spread over the whole array reads that word's value everywhere. -/
theorem zeros_apply (i : S50000x128.Idx) :
    broadcastInDim S50000x128 ![] bcast_S_S50000x128 (constant (F := Ideal) S_ .f32 0x00000000#32) i
      = Ideal.ofBits .f32 0x00000000#32 :=
  broadcastInDim_apply _ bcast_S_S50000x128 (constant (F := Ideal) S_ .f32 0x00000000#32) i (fun d => d.elim0) (fun d => d.elim0)

/-! ## The layer at an index

Reading the layer at (r, q): the outer sum is the second product plus the second bias at q; under its sum
over k the left factor is the clipped first layer at (r, k), itself the first product plus the first bias
at k. -/

theorem refLayer_apply (h a : (⟨S50000x128, .f32⟩ : BufTy).Contents (Elt Ideal)) (w1 : (⟨S128x128, .f32⟩ : BufTy).Contents (Elt Ideal)) (b1 : (⟨S128, .f32⟩ : BufTy).Contents (Elt Ideal)) (w2 : (⟨S128x128, .f32⟩ : BufTy).Contents (Elt Ideal)) (b2 : (⟨S128, .f32⟩ : BufTy).Contents (Elt Ideal)) (r : Fin 50000) (q : Fin 128) :
    refLayer (F := Ideal) h a w1 b1 w2 b2 (ValueIdx.ix2 r q)
      = Cert.Spec.mlpAt (fun k' => h (ValueIdx.ix2 r k') + a (ValueIdx.ix2 r k')) (fun k' k => w1 (ValueIdx.ix2 k' k)) (fun k => b1 (ValueIdx.ix1 k)) (fun k q' => w2 (ValueIdx.ix2 k q')) (fun q' => b2 (ValueIdx.ix1 q')) q := by
  unfold refLayer
  rw [ValueIdx.addf_apply, dotGeneral_ix2, biasRows_apply]
  unfold Cert.Spec.mlpAt
  refine congrArg (· + b2 (ValueIdx.ix1 q)) (Finset.sum_congr rfl fun k _ => ?_)
  rw [ValueIdx.maximumf_apply, ValueIdx.addf_apply, dotGeneral_ix2, biasRows_apply, zeros_apply]
  rfl

end Cert.ReferenceIdeal.Layer

end
-- ==== Proof.RefValue.lean ====
/-
  The reference's result as a composition of three named pieces, at any float instance.

  * `agg h e`: the neighbour sum — for every edge (src, dst) of the edge list `e` the row `h[src]` (a negative index wrapped
    once by 50000) added into row `dst` of a zero array;
  * `refLayer h a W₁ b₁ W₂ b₂`: one layer's perceptron on whole arrays (module RefLayer);
  * `final x k₁ k₂ k₃ s`: the four arrays joined side by side into 50000 × 512 and their rows summed into the 5000
    segments that `s` names.

  The reference computes `final x L₁ L₂ L₃ s` with `L₁ = refLayer x (agg x e) …`, `L₂ = refLayer L₁ (agg L₁ e) …`,
  `L₃ = refLayer L₂ (agg L₂ e) …`, each layer with its own slices of the stacked weights and biases.  Every equation
  here holds by unfolding the stages: the three layers' operations are the same operations on different operands.
-/
import proofs.«115844_j7438883357611_1_alg».proof.Proof.Gen.ReferenceIdeal.Read
import proofs.«115844_j7438883357611_1_alg».proof.Proof.RefLayer

noncomputable section

namespace Cert.ReferenceIdeal.Whole

open Cert.ReferenceIdeal Cert.ReferenceIdeal.Gen Cert.ReferenceIdeal.Read Cert.ReferenceIdeal.Layer Idealize.ShloMosaic Idealize.ShloMosaic.StableHlo

variable {F : FTy → Type} [FloatOps F]

/-- The neighbour sum of `h` along the edge list `x1`. -/
def agg (h : (⟨S50000x128, .f32⟩ : BufTy).Contents (Elt F)) (x1 : (⟨S2x800000, .i32⟩ : BufTy).Contents (Elt F)) : (⟨S50000x128, .f32⟩ : BufTy).Contents (Elt F) :=
  Host.scatterAdd scatter_S50000x128_S800000x1_S800000x128_1_0_0_1 (val_main_v11 (F := F)) (val_main_v12 (F := F) x1)
    (Host.gather gather_S50000x128_S800000x1_S800000x128_1_0_n_n_0_1_1128 h (val_main_v9 (F := F) x1))

/-- The four arrays side by side, rows summed into the segments `x2` names. -/
def final (x0 k1 k2 k3 : (⟨S50000x128, .f32⟩ : BufTy).Contents (Elt F)) (x2 : (⟨S50000, .i32⟩ : BufTy).Contents (Elt F)) : (⟨S5000x512, .f32⟩ : BufTy).Contents (Elt F) :=
  Host.scatterAdd scatter_S5000x512_S50000x1_S50000x512_1_0_0_1 (val_main_v89 (F := F)) (val_main_v90 (F := F) x2)
    (concatenate S50000x512 1 [⟨S50000x128, x0⟩, ⟨S50000x128, k1⟩, ⟨S50000x128, k2⟩, ⟨S50000x128, k3⟩] concatenates_S50000x128_S50000x128_S50000x128_S50000x128_S50000x512_d1)

/-- The three layers' outputs. -/
def L1 (x0 : (⟨S50000x128, .f32⟩ : BufTy).Contents (Elt F)) (x1 : (⟨S2x800000, .i32⟩ : BufTy).Contents (Elt F)) (x3 : (⟨S3x128x128, .f32⟩ : BufTy).Contents (Elt F)) (x4 : (⟨S3x128, .f32⟩ : BufTy).Contents (Elt F)) (x5 : (⟨S3x128x128, .f32⟩ : BufTy).Contents (Elt F)) (x6 : (⟨S3x128, .f32⟩ : BufTy).Contents (Elt F)) : (⟨S50000x128, .f32⟩ : BufTy).Contents (Elt F) :=
  refLayer x0 (agg x0 x1) (val_main_v16 (F := F) x3) (val_main_v19 (F := F) x4) (val_main_v25 (F := F) x5) (val_main_v28 (F := F) x6)
def L2 (x0 : (⟨S50000x128, .f32⟩ : BufTy).Contents (Elt F)) (x1 : (⟨S2x800000, .i32⟩ : BufTy).Contents (Elt F)) (x3 : (⟨S3x128x128, .f32⟩ : BufTy).Contents (Elt F)) (x4 : (⟨S3x128, .f32⟩ : BufTy).Contents (Elt F)) (x5 : (⟨S3x128x128, .f32⟩ : BufTy).Contents (Elt F)) (x6 : (⟨S3x128, .f32⟩ : BufTy).Contents (Elt F)) : (⟨S50000x128, .f32⟩ : BufTy).Contents (Elt F) :=
  refLayer (L1 x0 x1 x3 x4 x5 x6) (agg (L1 x0 x1 x3 x4 x5 x6) x1) (val_main_v44 (F := F) x3) (val_main_v47 (F := F) x4) (val_main_v53 (F := F) x5) (val_main_v56 (F := F) x6)
def L3 (x0 : (⟨S50000x128, .f32⟩ : BufTy).Contents (Elt F)) (x1 : (⟨S2x800000, .i32⟩ : BufTy).Contents (Elt F)) (x3 : (⟨S3x128x128, .f32⟩ : BufTy).Contents (Elt F)) (x4 : (⟨S3x128, .f32⟩ : BufTy).Contents (Elt F)) (x5 : (⟨S3x128x128, .f32⟩ : BufTy).Contents (Elt F)) (x6 : (⟨S3x128, .f32⟩ : BufTy).Contents (Elt F)) : (⟨S50000x128, .f32⟩ : BufTy).Contents (Elt F) :=
  refLayer (L2 x0 x1 x3 x4 x5 x6) (agg (L2 x0 x1 x3 x4 x5 x6) x1) (val_main_v72 (F := F) x3) (val_main_v75 (F := F) x4) (val_main_v81 (F := F) x5) (val_main_v84 (F := F) x6)

theorem v31_eq (x0 : (⟨S50000x128, .f32⟩ : BufTy).Contents (Elt F)) (x1 : (⟨S2x800000, .i32⟩ : BufTy).Contents (Elt F)) (x3 : (⟨S3x128x128, .f32⟩ : BufTy).Contents (Elt F)) (x4 : (⟨S3x128, .f32⟩ : BufTy).Contents (Elt F)) (x5 : (⟨S3x128x128, .f32⟩ : BufTy).Contents (Elt F)) (x6 : (⟨S3x128, .f32⟩ : BufTy).Contents (Elt F)) : val_main_v31 (F := F) x0 x1 x3 x4 x5 x6 = L1 x0 x1 x3 x4 x5 x6 := rfl
theorem v59_eq (x0 : (⟨S50000x128, .f32⟩ : BufTy).Contents (Elt F)) (x1 : (⟨S2x800000, .i32⟩ : BufTy).Contents (Elt F)) (x3 : (⟨S3x128x128, .f32⟩ : BufTy).Contents (Elt F)) (x4 : (⟨S3x128, .f32⟩ : BufTy).Contents (Elt F)) (x5 : (⟨S3x128x128, .f32⟩ : BufTy).Contents (Elt F)) (x6 : (⟨S3x128, .f32⟩ : BufTy).Contents (Elt F)) : val_main_v59 (F := F) x0 x1 x3 x4 x5 x6 = L2 x0 x1 x3 x4 x5 x6 := by
  unfold L2; rw [← v31_eq]; rfl
theorem v87_eq (x0 : (⟨S50000x128, .f32⟩ : BufTy).Contents (Elt F)) (x1 : (⟨S2x800000, .i32⟩ : BufTy).Contents (Elt F)) (x3 : (⟨S3x128x128, .f32⟩ : BufTy).Contents (Elt F)) (x4 : (⟨S3x128, .f32⟩ : BufTy).Contents (Elt F)) (x5 : (⟨S3x128x128, .f32⟩ : BufTy).Contents (Elt F)) (x6 : (⟨S3x128, .f32⟩ : BufTy).Contents (Elt F)) : val_main_v87 (F := F) x0 x1 x3 x4 x5 x6 = L3 x0 x1 x3 x4 x5 x6 := by
  unfold L3; rw [← v59_eq]; rfl

/-- The reference's result is `final` of the node features and the three layers' outputs. -/
theorem v91_eq (x0 : (⟨S50000x128, .f32⟩ : BufTy).Contents (Elt F)) (x1 : (⟨S2x800000, .i32⟩ : BufTy).Contents (Elt F)) (x3 : (⟨S3x128x128, .f32⟩ : BufTy).Contents (Elt F)) (x4 : (⟨S3x128, .f32⟩ : BufTy).Contents (Elt F)) (x5 : (⟨S3x128x128, .f32⟩ : BufTy).Contents (Elt F)) (x6 : (⟨S3x128, .f32⟩ : BufTy).Contents (Elt F)) (x2 : (⟨S50000, .i32⟩ : BufTy).Contents (Elt F)) :
    val_main_v91 (F := F) x0 x1 x2 x3 x4 x5 x6 = final x0 (L1 x0 x1 x3 x4 x5 x6) (L2 x0 x1 x3 x4 x5 x6) (L3 x0 x1 x3 x4 x5 x6) x2 := by
  rw [← v31_eq, ← v59_eq, ← v87_eq]; rfl

end Cert.ReferenceIdeal.Whole

end
-- ==== Proof.KernelTerms.lean ====
/-
  What the host stretches of the kernel's program compute, at any float instance, read off the fold of boundary
  contents and named by the reference's own stages (the two programs apply the same host operations to the edge list,
  the stacked weights and the stacked biases):

  * before region 0: the edge list's two rows as flat index vectors; the neighbour sum `agg x e` of the node features;
    layer 0's slices of the weights, and of the biases as 1 × 128 rows;
  * before region 1 and region 2: the same of the previous region's output array and of layers 1 and 2's slices;
  * after region 2: the result, `final` of the node features and the three regions' output arrays.

  A region changes no buffer but its output array, so whatever an earlier stretch computed is still there later.
-/
import proofs.«115844_j7438883357611_1_alg».proof.Proof.Thread
import proofs.«115844_j7438883357611_1_alg».proof.Proof.RefValue

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.Whole (agg final)
open Cert.ReferenceIdeal.Read (val_main_v1 val_main_v3 val_main_v16 val_main_v19 val_main_v25 val_main_v28 val_main_v44 val_main_v47 val_main_v53 val_main_v56 val_main_v72 val_main_v75 val_main_v81 val_main_v84)

variable {F : FTy → Type} [FloatOps F]
variable (m : (ℓ : Loc nD τ sig) → Buf (Elt F) ℓ) (ρ : Dev nD → PrngReg)

/-! ## Before region 0 -/

theorem W1_v1 (c : Dev nD) : W1 m ρ c (Proc.devRef .tc main_v1) = val_main_v1 (F := F) (m ((c.tc : Thread nD τ).loc main_arg1)) := by
  show StableHlo.after hostOps0 (W0 m ρ c) _ = _
  dsimp only [hostOps0]; after_results; rfl
theorem W1_v3 (c : Dev nD) : W1 m ρ c (Proc.devRef .tc main_v3) = val_main_v3 (F := F) (m ((c.tc : Thread nD τ).loc main_arg1)) := by
  show StableHlo.after hostOps0 (W0 m ρ c) _ = _
  dsimp only [hostOps0]; after_results; rfl
set_option maxHeartbeats 2000000 in
theorem W1_v13 (c : Dev nD) : W1 m ρ c (Proc.devRef .tc main_v13) = agg (F := F) (m ((c.tc : Thread nD τ).loc main_arg0)) (m ((c.tc : Thread nD τ).loc main_arg1)) := by
  show StableHlo.after hostOps0 (W0 m ρ c) _ = _
  dsimp only [hostOps0]; after_results; rfl
theorem W1_v15 (c : Dev nD) : W1 m ρ c (Proc.devRef .tc main_v15) = val_main_v16 (F := F) (m ((c.tc : Thread nD τ).loc main_arg3)) := by
  show StableHlo.after hostOps0 (W0 m ρ c) _ = _
  dsimp only [hostOps0]; after_results; rfl
theorem W1_v22 (c : Dev nD) : W1 m ρ c (Proc.devRef .tc main_v22) = shapeCast S1x128 (val_main_v19 (F := F) (m ((c.tc : Thread nD τ).loc main_arg4))) shapeCasts_S128_S1x128 := by
  show StableHlo.after hostOps0 (W0 m ρ c) _ = _
  dsimp only [hostOps0]; after_results; rfl
theorem W1_v19 (c : Dev nD) : W1 m ρ c (Proc.devRef .tc main_v19) = val_main_v25 (F := F) (m ((c.tc : Thread nD τ).loc main_arg5)) := by
  show StableHlo.after hostOps0 (W0 m ρ c) _ = _
  dsimp only [hostOps0]; after_results; rfl
theorem W1_v23 (c : Dev nD) : W1 m ρ c (Proc.devRef .tc main_v23) = shapeCast S1x128 (val_main_v28 (F := F) (m ((c.tc : Thread nD τ).loc main_arg6))) shapeCasts_S128_S1x128 := by
  show StableHlo.after hostOps0 (W0 m ρ c) _ = _
  dsimp only [hostOps0]; after_results; rfl
theorem W1_arg0 (c : Dev nD) : W1 m ρ c (Proc.devRef .tc main_arg0) = m ((c.tc : Thread nD τ).loc main_arg0) :=
  StableHlo.after_of_writes_sub hostOps0 _ hostOps0_writes (by decide)
theorem W1_arg1 (c : Dev nD) : W1 m ρ c (Proc.devRef .tc main_arg1) = m ((c.tc : Thread nD τ).loc main_arg1) :=
  StableHlo.after_of_writes_sub hostOps0 _ hostOps0_writes (by decide)
theorem W1_arg2 (c : Dev nD) : W1 m ρ c (Proc.devRef .tc main_arg2) = m ((c.tc : Thread nD τ).loc main_arg2) :=
  StableHlo.after_of_writes_sub hostOps0 _ hostOps0_writes (by decide)
theorem W1_arg3 (c : Dev nD) : W1 m ρ c (Proc.devRef .tc main_arg3) = m ((c.tc : Thread nD τ).loc main_arg3) :=
  StableHlo.after_of_writes_sub hostOps0 _ hostOps0_writes (by decide)
theorem W1_arg4 (c : Dev nD) : W1 m ρ c (Proc.devRef .tc main_arg4) = m ((c.tc : Thread nD τ).loc main_arg4) :=
  StableHlo.after_of_writes_sub hostOps0 _ hostOps0_writes (by decide)
theorem W1_arg5 (c : Dev nD) : W1 m ρ c (Proc.devRef .tc main_arg5) = m ((c.tc : Thread nD τ).loc main_arg5) :=
  StableHlo.after_of_writes_sub hostOps0 _ hostOps0_writes (by decide)
theorem W1_arg6 (c : Dev nD) : W1 m ρ c (Proc.devRef .tc main_arg6) = m ((c.tc : Thread nD τ).loc main_arg6) :=
  StableHlo.after_of_writes_sub hostOps0 _ hostOps0_writes (by decide)

/-! ## Before region 1 -/

theorem W2_arg0 (c : Dev nD) : W2 m ρ c (Proc.devRef .tc main_arg0) = m ((c.tc : Thread nD τ).loc main_arg0) :=
  (W2_keep m ρ c main_arg0 (by decide)).trans (W1_arg0 m ρ c)
theorem W2_arg1 (c : Dev nD) : W2 m ρ c (Proc.devRef .tc main_arg1) = m ((c.tc : Thread nD τ).loc main_arg1) :=
  (W2_keep m ρ c main_arg1 (by decide)).trans (W1_arg1 m ρ c)
theorem W2_arg2 (c : Dev nD) : W2 m ρ c (Proc.devRef .tc main_arg2) = m ((c.tc : Thread nD τ).loc main_arg2) :=
  (W2_keep m ρ c main_arg2 (by decide)).trans (W1_arg2 m ρ c)
theorem W2_arg3 (c : Dev nD) : W2 m ρ c (Proc.devRef .tc main_arg3) = m ((c.tc : Thread nD τ).loc main_arg3) :=
  (W2_keep m ρ c main_arg3 (by decide)).trans (W1_arg3 m ρ c)
theorem W2_arg4 (c : Dev nD) : W2 m ρ c (Proc.devRef .tc main_arg4) = m ((c.tc : Thread nD τ).loc main_arg4) :=
  (W2_keep m ρ c main_arg4 (by decide)).trans (W1_arg4 m ρ c)
theorem W2_arg5 (c : Dev nD) : W2 m ρ c (Proc.devRef .tc main_arg5) = m ((c.tc : Thread nD τ).loc main_arg5) :=
  (W2_keep m ρ c main_arg5 (by decide)).trans (W1_arg5 m ρ c)
theorem W2_arg6 (c : Dev nD) : W2 m ρ c (Proc.devRef .tc main_arg6) = m ((c.tc : Thread nD τ).loc main_arg6) :=
  (W2_keep m ρ c main_arg6 (by decide)).trans (W1_arg6 m ρ c)
theorem W2_v1 (c : Dev nD) : W2 m ρ c (Proc.devRef .tc main_v1) = val_main_v1 (F := F) (m ((c.tc : Thread nD τ).loc main_arg1)) :=
  (W2_keep m ρ c main_v1 (by decide)).trans (W1_v1 m ρ c)
theorem W2_v3 (c : Dev nD) : W2 m ρ c (Proc.devRef .tc main_v3) = val_main_v3 (F := F) (m ((c.tc : Thread nD τ).loc main_arg1)) :=
  (W2_keep m ρ c main_v3 (by decide)).trans (W1_v3 m ρ c)

theorem W3_v34 (c : Dev nD) : W3 m ρ c (Proc.devRef .tc main_v34) = agg (F := F) (W2 m ρ c (Proc.devRef .tc main_v24)) (m ((c.tc : Thread nD τ).loc main_arg1)) := by
  show StableHlo.after hostOps1 (W2 m ρ c) _ = _
  dsimp only [hostOps1]; after_results
  rw [W2_v1 m ρ c, W2_v3 m ρ c]; rfl
theorem W3_v36 (c : Dev nD) : W3 m ρ c (Proc.devRef .tc main_v36) = val_main_v44 (F := F) (m ((c.tc : Thread nD τ).loc main_arg3)) := by
  show StableHlo.after hostOps1 (W2 m ρ c) _ = _
  dsimp only [hostOps1]; after_results
  rw [W2_arg3 m ρ c]; rfl
theorem W3_v43 (c : Dev nD) : W3 m ρ c (Proc.devRef .tc main_v43) = shapeCast S1x128 (val_main_v47 (F := F) (m ((c.tc : Thread nD τ).loc main_arg4))) shapeCasts_S128_S1x128 := by
  show StableHlo.after hostOps1 (W2 m ρ c) _ = _
  dsimp only [hostOps1]; after_results
  rw [W2_arg4 m ρ c]; rfl
theorem W3_v40 (c : Dev nD) : W3 m ρ c (Proc.devRef .tc main_v40) = val_main_v53 (F := F) (m ((c.tc : Thread nD τ).loc main_arg5)) := by
  show StableHlo.after hostOps1 (W2 m ρ c) _ = _
  dsimp only [hostOps1]; after_results
  rw [W2_arg5 m ρ c]; rfl
theorem W3_v44 (c : Dev nD) : W3 m ρ c (Proc.devRef .tc main_v44) = shapeCast S1x128 (val_main_v56 (F := F) (m ((c.tc : Thread nD τ).loc main_arg6))) shapeCasts_S128_S1x128 := by
  show StableHlo.after hostOps1 (W2 m ρ c) _ = _
  dsimp only [hostOps1]; after_results
  rw [W2_arg6 m ρ c]; rfl
theorem W3_v24 (c : Dev nD) : W3 m ρ c (Proc.devRef .tc main_v24) = W2 m ρ c (Proc.devRef .tc main_v24) :=
  StableHlo.after_of_writes_sub hostOps1 _ hostOps1_writes (by decide)

/-! ## Before region 2 -/

theorem W4_of_W2 (c : Dev nD) (b : Ref sig .tc) (h1 : b ∉ hostOps1_W) (hb : b ≠ main_v45) :
    W4 m ρ c (Proc.devRef .tc b) = W2 m ρ c (Proc.devRef .tc b) :=
  (W4_keep m ρ c b hb).trans (StableHlo.after_of_writes_sub hostOps1 _ hostOps1_writes h1)
theorem W4_arg0 (c : Dev nD) : W4 m ρ c (Proc.devRef .tc main_arg0) = m ((c.tc : Thread nD τ).loc main_arg0) :=
  (W4_of_W2 m ρ c main_arg0 (by decide) (by decide)).trans (W2_arg0 m ρ c)
theorem W4_arg1 (c : Dev nD) : W4 m ρ c (Proc.devRef .tc main_arg1) = m ((c.tc : Thread nD τ).loc main_arg1) :=
  (W4_of_W2 m ρ c main_arg1 (by decide) (by decide)).trans (W2_arg1 m ρ c)
theorem W4_arg2 (c : Dev nD) : W4 m ρ c (Proc.devRef .tc main_arg2) = m ((c.tc : Thread nD τ).loc main_arg2) :=
  (W4_of_W2 m ρ c main_arg2 (by decide) (by decide)).trans (W2_arg2 m ρ c)
theorem W4_arg3 (c : Dev nD) : W4 m ρ c (Proc.devRef .tc main_arg3) = m ((c.tc : Thread nD τ).loc main_arg3) :=
  (W4_of_W2 m ρ c main_arg3 (by decide) (by decide)).trans (W2_arg3 m ρ c)
theorem W4_arg4 (c : Dev nD) : W4 m ρ c (Proc.devRef .tc main_arg4) = m ((c.tc : Thread nD τ).loc main_arg4) :=
  (W4_of_W2 m ρ c main_arg4 (by decide) (by decide)).trans (W2_arg4 m ρ c)
theorem W4_arg5 (c : Dev nD) : W4 m ρ c (Proc.devRef .tc main_arg5) = m ((c.tc : Thread nD τ).loc main_arg5) :=
  (W4_of_W2 m ρ c main_arg5 (by decide) (by decide)).trans (W2_arg5 m ρ c)
theorem W4_arg6 (c : Dev nD) : W4 m ρ c (Proc.devRef .tc main_arg6) = m ((c.tc : Thread nD τ).loc main_arg6) :=
  (W4_of_W2 m ρ c main_arg6 (by decide) (by decide)).trans (W2_arg6 m ρ c)
theorem W4_v1 (c : Dev nD) : W4 m ρ c (Proc.devRef .tc main_v1) = val_main_v1 (F := F) (m ((c.tc : Thread nD τ).loc main_arg1)) :=
  (W4_of_W2 m ρ c main_v1 (by decide) (by decide)).trans (W2_v1 m ρ c)
theorem W4_v3 (c : Dev nD) : W4 m ρ c (Proc.devRef .tc main_v3) = val_main_v3 (F := F) (m ((c.tc : Thread nD τ).loc main_arg1)) :=
  (W4_of_W2 m ρ c main_v3 (by decide) (by decide)).trans (W2_v3 m ρ c)
theorem W4_v24 (c : Dev nD) : W4 m ρ c (Proc.devRef .tc main_v24) = W2 m ρ c (Proc.devRef .tc main_v24) :=
  W4_of_W2 m ρ c main_v24 (by decide) (by decide)

theorem W5_v55 (c : Dev nD) : W5 m ρ c (Proc.devRef .tc main_v55) = agg (F := F) (W4 m ρ c (Proc.devRef .tc main_v45)) (m ((c.tc : Thread nD τ).loc main_arg1)) := by
  show StableHlo.after hostOps2 (W4 m ρ c) _ = _
  dsimp only [hostOps2]; after_results
  rw [W4_v1 m ρ c, W4_v3 m ρ c]; rfl
theorem W5_v57 (c : Dev nD) : W5 m ρ c (Proc.devRef .tc main_v57) = val_main_v72 (F := F) (m ((c.tc : Thread nD τ).loc main_arg3)) := by
  show StableHlo.after hostOps2 (W4 m ρ c) _ = _
  dsimp only [hostOps2]; after_results
  rw [W4_arg3 m ρ c]; rfl
theorem W5_v64 (c : Dev nD) : W5 m ρ c (Proc.devRef .tc main_v64) = shapeCast S1x128 (val_main_v75 (F := F) (m ((c.tc : Thread nD τ).loc main_arg4))) shapeCasts_S128_S1x128 := by
  show StableHlo.after hostOps2 (W4 m ρ c) _ = _
  dsimp only [hostOps2]; after_results
  rw [W4_arg4 m ρ c]; rfl
theorem W5_v61 (c : Dev nD) : W5 m ρ c (Proc.devRef .tc main_v61) = val_main_v81 (F := F) (m ((c.tc : Thread nD τ).loc main_arg5)) := by
  show StableHlo.after hostOps2 (W4 m ρ c) _ = _
  dsimp only [hostOps2]; after_results
  rw [W4_arg5 m ρ c]; rfl
theorem W5_v65 (c : Dev nD) : W5 m ρ c (Proc.devRef .tc main_v65) = shapeCast S1x128 (val_main_v84 (F := F) (m ((c.tc : Thread nD τ).loc main_arg6))) shapeCasts_S128_S1x128 := by
  show StableHlo.after hostOps2 (W4 m ρ c) _ = _
  dsimp only [hostOps2]; after_results
  rw [W4_arg6 m ρ c]; rfl
theorem W5_v45 (c : Dev nD) : W5 m ρ c (Proc.devRef .tc main_v45) = W4 m ρ c (Proc.devRef .tc main_v45) :=
  StableHlo.after_of_writes_sub hostOps2 _ hostOps2_writes (by decide)

/-! ## After region 2 -/

theorem W6_of_W4 (c : Dev nD) (b : Ref sig .tc) (h2 : b ∉ hostOps2_W) (hb : b ≠ main_v66) :
    W6 m ρ c (Proc.devRef .tc b) = W4 m ρ c (Proc.devRef .tc b) :=
  (W6_keep m ρ c b hb).trans (StableHlo.after_of_writes_sub hostOps2 _ hostOps2_writes h2)
theorem W6_arg0 (c : Dev nD) : W6 m ρ c (Proc.devRef .tc main_arg0) = m ((c.tc : Thread nD τ).loc main_arg0) :=
  (W6_of_W4 m ρ c main_arg0 (by decide) (by decide)).trans (W4_arg0 m ρ c)
theorem W6_arg2 (c : Dev nD) : W6 m ρ c (Proc.devRef .tc main_arg2) = m ((c.tc : Thread nD τ).loc main_arg2) :=
  (W6_of_W4 m ρ c main_arg2 (by decide) (by decide)).trans (W4_arg2 m ρ c)
theorem W6_v24 (c : Dev nD) : W6 m ρ c (Proc.devRef .tc main_v24) = W2 m ρ c (Proc.devRef .tc main_v24) :=
  (W6_of_W4 m ρ c main_v24 (by decide) (by decide)).trans (W4_v24 m ρ c)
theorem W6_v45 (c : Dev nD) : W6 m ρ c (Proc.devRef .tc main_v45) = W4 m ρ c (Proc.devRef .tc main_v45) :=
  W6_of_W4 m ρ c main_v45 (by decide) (by decide)

/-- The result buffer at the end: the node features and the three regions' output arrays side by side, rows summed into
    the segments. -/
theorem W7_v70 (c : Dev nD) : W7 m ρ c (Proc.devRef .tc main_v70)
    = final (F := F) (m ((c.tc : Thread nD τ).loc main_arg0)) (W2 m ρ c (Proc.devRef .tc main_v24)) (W4 m ρ c (Proc.devRef .tc main_v45)) (W6 m ρ c (Proc.devRef .tc main_v66)) (m ((c.tc : Thread nD τ).loc main_arg2)) := by
  show StableHlo.after hostOps3 (W6 m ρ c) _ = _
  dsimp only [hostOps3]; after_results
  show Host.scatterAdd scatter_S5000x512_S50000x1_S50000x512_1_0_0_1
      (broadcastInDim S5000x512 ![] bcast_S_S5000x512 (constant S_ .f32 0x00000000#32))
      (broadcastInDim S50000x1 ![0] bcast_S50000_S50000x1_0 (W6 m ρ c (Proc.devRef .tc main_arg2)))
      (concatenate S50000x512 1 [⟨S50000x128, W6 m ρ c (Proc.devRef .tc main_arg0)⟩, ⟨S50000x128, W6 m ρ c (Proc.devRef .tc main_v24)⟩,
        ⟨S50000x128, W6 m ρ c (Proc.devRef .tc main_v45)⟩, ⟨S50000x128, W6 m ρ c (Proc.devRef .tc main_v66)⟩]
        concatenates_S50000x128_S50000x128_S50000x128_S50000x128_S50000x512_d1) = _
  rw [W6_arg0 m ρ c, W6_arg2 m ρ c, W6_v24 m ρ c, W6_v45 m ρ c]; rfl

end Cert.KernelIdeal.Hand

end
-- ==== Proof.KernelPayload.lean ====
/-
  One block of the perceptron kernel, read at an index.  Each of the three kernel bodies stores, for its
  block of 5000 node rows, the value

      ((x₀ + x₁) · W₁ + b₁) clipped below at zero, then · W₂ + b₂,

  where x₀ + x₁ is a node's features plus the sum over its in-neighbours, the products are matrix
  products contracting the 128 features, and the bias rows b₁, b₂ (one row of 128) are repeated down
  the 5000 rows.  Over the extended reals the remaining operations of the body do nothing: a cast to
  the same shape is the identity, and so is the narrowing of a float to sixteen bits.  So the stored
  value at row p and feature q is the specification's number for the row vector x₀ (p, ·) + x₁ (p, ·).
-/
import proofs.«115844_j7438883357611_1_alg».proof.Proof.Gen.KernelIdeal.Skeleton
import proofs.«115844_j7438883357611_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The block product at an index

The kernel's matrix product contracts axis 1 of the left operand with axis 0 of the right one. At the
output index (p, q) and the contraction coordinate k its left index is (p, k) and its right index (k, q):
the four coordinate facts below, one per operand axis; then the product into a zero accumulator is the
plain sum over k : Fin 128. -/

theorem lhs_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
theorem rhs_0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
theorem rhs_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a 5000×128 block with a 128×128 matrix, accumulated into the zero block, read at
    (p, q): the sum over k of a (p, k) · b (k, q). -/
theorem matmul_zero_apply {φ₁ φ₂ : FTy} (a : FVec Ideal S5000x128 φ₁) (b : FVec Ideal S128x128 φ₂) (p : Fin 5000) (q : Fin 128) :
    matmul (F := Ideal) dot_S5000x128_S128x128_S5000x128_1_0_0_1_n_n none a b (constant (F := Ideal) S5000x128 .f32 0x00000000#32) (ix2 p q)
      = ∑ k : Fin 128, a (ix2 p k) * b (ix2 k q) := by
  show FloatOps.matmul dot_S5000x128_S128x128_S5000x128_1_0_0_1_n_n none a b (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun d => Fin.ext (by
    match d with
    | ⟨0, _⟩ => exact lhs_0 _ _
    | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun d => Fin.ext (by
    match d with
    | ⟨0, _⟩ => exact (rhs_0 _ _).trans hk
    | ⟨1, _⟩ => exact rhs_1 _ _)
  rw [el, er]

/-! ## The three bodies at an index

After the same-shape casts are dropped the three bodies are one term.  Reading it at (p, q): the outer
sum is the second product plus the second bias row at q; under its sum over k the left factor is the
clipped first layer at (p, k), itself the first product plus the first bias row at k, and the narrowing
casts read through. -/

theorem k0_pay1_apply (x0 x1 : Vec Ideal S5000x128 .f32) (w1 : Vec Ideal S128x128 .f32) (b1 : Vec Ideal S1x128 .f32) (w2 : Vec Ideal S128x128 .f32) (b2 : Vec Ideal S1x128 .f32) (p : Fin 5000) (q : Fin 128) :
    k0_pay1 (F := Ideal) x0 x1 w1 b1 w2 b2 (ix2 p q)
      = Cert.Spec.mlpAt (fun k' => x0 (ix2 p k') + x1 (ix2 p k')) (fun k' k => w1 (ix2 k' k)) (fun k => b1 (ix2 (0 : Fin 1) k)) (fun k q' => w2 (ix2 k q')) (fun q' => b2 (ix2 (0 : Fin 1) q')) q := by
  unfold k0_pay1
  simp only [shapeCast_self]
  rw [addf_apply, matmul_zero_apply, broadcastTo_1b_ab_apply]
  unfold Cert.Spec.mlpAt
  refine congrArg (· + b2 (ix2 (0 : Fin 1) q)) (Finset.sum_congr rfl fun k _ => ?_)
  rw [truncf_apply, truncf_apply, maximumf_apply, addf_apply, matmul_zero_apply, broadcastTo_1b_ab_apply, broadcast_apply]
  rfl

theorem k1_pay1_apply (x0 x1 : Vec Ideal S5000x128 .f32) (w1 : Vec Ideal S128x128 .f32) (b1 : Vec Ideal S1x128 .f32) (w2 : Vec Ideal S128x128 .f32) (b2 : Vec Ideal S1x128 .f32) (p : Fin 5000) (q : Fin 128) :
    k1_pay1 (F := Ideal) x0 x1 w1 b1 w2 b2 (ix2 p q)
      = Cert.Spec.mlpAt (fun k' => x0 (ix2 p k') + x1 (ix2 p k')) (fun k' k => w1 (ix2 k' k)) (fun k => b1 (ix2 (0 : Fin 1) k)) (fun k q' => w2 (ix2 k q')) (fun q' => b2 (ix2 (0 : Fin 1) q')) q := by
  unfold k1_pay1
  simp only [shapeCast_self]
  rw [addf_apply, matmul_zero_apply, broadcastTo_1b_ab_apply]
  unfold Cert.Spec.mlpAt
  refine congrArg (· + b2 (ix2 (0 : Fin 1) q)) (Finset.sum_congr rfl fun k _ => ?_)
  rw [truncf_apply, truncf_apply, maximumf_apply, addf_apply, matmul_zero_apply, broadcastTo_1b_ab_apply, broadcast_apply]
  rfl

theorem k2_pay1_apply (x0 x1 : Vec Ideal S5000x128 .f32) (w1 : Vec Ideal S128x128 .f32) (b1 : Vec Ideal S1x128 .f32) (w2 : Vec Ideal S128x128 .f32) (b2 : Vec Ideal S1x128 .f32) (p : Fin 5000) (q : Fin 128) :
    k2_pay1 (F := Ideal) x0 x1 w1 b1 w2 b2 (ix2 p q)
      = Cert.Spec.mlpAt (fun k' => x0 (ix2 p k') + x1 (ix2 p k')) (fun k' k => w1 (ix2 k' k)) (fun k => b1 (ix2 (0 : Fin 1) k)) (fun k q' => w2 (ix2 k q')) (fun q' => b2 (ix2 (0 : Fin 1) q')) q := by
  unfold k2_pay1
  simp only [shapeCast_self]
  rw [addf_apply, matmul_zero_apply, broadcastTo_1b_ab_apply]
  unfold Cert.Spec.mlpAt
  refine congrArg (· + b2 (ix2 (0 : Fin 1) q)) (Finset.sum_congr rfl fun k _ => ?_)
  rw [truncf_apply, truncf_apply, maximumf_apply, addf_apply, matmul_zero_apply, broadcastTo_1b_ab_apply, broadcast_apply]
  rfl

end Cert.KernelIdeal.Pay

end
-- ==== Proof.RegionValue0.lean ====
/-
  From blocks to the array, for the first layer's region.  The region's pipeline visits ten grid points; at point `t`
  the output window holds rows `5000 t … 5000 t + 4999` of the 50000 × 128 result, the two activation windows hold the
  same rows of their arrays, and the two weight matrices and two bias rows are held whole at every point.  The body
  leaves in the output block, at row `p` and feature `q`, the perceptron's number for row `p` of the sum of the two
  activation blocks; that row is row `5000 t + p` of the sum of the two activation arrays, so what point `t` writes
  back is block `t` of ONE function of the six arrays, the layer on whole arrays.  Every row `r` of the result lies
  in the block of point `r / 5000`, so after the ten points the result array is that function.
-/
import proofs.«115844_j7438883357611_1_alg».proof.Proof.Region0
import proofs.«115844_j7438883357611_1_alg».proof.Proof.KernelPayload
import proofs.«115844_j7438883357611_1_alg».proof.Proof.Spec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

-- the core's buffer contents when the region is entered, over the extended reals
variable (V : (c : Dev nD) → (b : Ref sig .tc) → Buf (Elt Ideal) ((c : Thread nD τ).loc b))

/-! ## The arrays and the index maps -/

/-- the six input arrays of the region at their literal types -/
abbrev arr0_0 (c : Dev nD) : Vec Ideal S50000x128 .f32 := V c (Pipeline.arrRef spec0 0)
abbrev arr0_1 (c : Dev nD) : Vec Ideal S50000x128 .f32 := V c (Pipeline.arrRef spec0 1)
abbrev arr0_2 (c : Dev nD) : Vec Ideal S128x128 .f32 := V c (Pipeline.arrRef spec0 2)
abbrev arr0_3 (c : Dev nD) : Vec Ideal S1x128 .f32 := V c (Pipeline.arrRef spec0 3)
abbrev arr0_4 (c : Dev nD) : Vec Ideal S128x128 .f32 := V c (Pipeline.arrRef spec0 4)
abbrev arr0_5 (c : Dev nD) : Vec Ideal S1x128 .f32 := V c (Pipeline.arrRef spec0 5)

/-- The index maps over the grid: the output and the two activations are at block (t, 0) at point `t`; the weights
    and the bias rows stay at block (0, 0). -/
theorem win0_idx : ∀ t : Fin cfg0.N,
    win0_6.index t (0 : Fin 2) = t.val ∧ win0_6.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-! ## The output block at an index -/

theorem out0_6_hz : (![0, 0] : Fin 2 → Nat) = fun _ => 0 := funext fun a => by fin_cases a <;> rfl

/-- What the body leaves in the output block, at row `p` and feature `q`: the perceptron's number for row `p` of
    the sum of the two activation blocks. -/
theorem out0_6_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    out0_6 (F := Ideal) x0 x1 x2 x3 x4 x5 (ix2 p q)
      = Cert.Spec.mlpAt (fun k' => x0 (ix2 p k') + x1 (ix2 p k')) (fun k' k => x2 (ix2 k' k)) (fun k => x3 (ix2 (0 : Fin 1) k))
          (fun k q' => x4 (ix2 k q')) (fun q' => x5 (ix2 (0 : Fin 1) q')) q := by
  unfold out0_6
  rw [View.canon_unit_zero out0_6_hz]
  simp only [View.ld_unit_zero (S := S5000x128) out0_6_hz, View.ld_unit_zero (S := S128x128) out0_6_hz, View.ld_unit_zero (S := S1x128) out0_6_hz]
  exact Cert.KernelIdeal.Pay.k0_pay1_apply x0 x1 x2 x3 x4 x5 p q

/-! ## The input blocks as parts of their arrays -/

/-- A row-tiled input's block at point `t`, read at row `p` of the block, is the array at row `5000 t + p`. -/
theorem iblk0_0_apply (c : Dev nD) (t : Fin cfg0.N) (p : Fin 5000) (k : Fin 128) (r : Fin 50000) (hr : r.val = 5000 * t.val + p.val) :
    (iblk0 V c 0 t : Vec Ideal S5000x128 .f32) (ix2 p k) = arr0_0 V c (ix2 r k) := by
  obtain ⟨-, -, e0, e1, -⟩ := win0_idx t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

theorem iblk0_1_apply (c : Dev nD) (t : Fin cfg0.N) (p : Fin 5000) (k : Fin 128) (r : Fin 50000) (hr : r.val = 5000 * t.val + p.val) :
    (iblk0 V c 1 t : Vec Ideal S5000x128 .f32) (ix2 p k) = arr0_1 V c (ix2 r k) := by
  obtain ⟨-, -, -, -, e0, e1, -⟩ := win0_idx t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 5000 + 1 * p.val = r.val; rw [e0, hr]; omega
  | ⟨1, _⟩ => show win0_1.index t (1 : Fin 2) * 128 + 1 * k.val = k.val; rw [e1]; omega

/-- A whole-array window's block is its array, at every point. -/
theorem iblk0_2_eq (c : Dev nD) (t : Fin cfg0.N) : (iblk0 V c 2 t : Vec Ideal S128x128 .f32) = arr0_2 V c := by
  obtain ⟨-, -, -, -, -, -, e0, e1, -⟩ := win0_idx t
  funext x
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 128 + 1 * (x 0).val = (x 0).val; rw [e0]; omega
  | ⟨1, _⟩ => show win0_2.index t (1 : Fin 2) * 128 + 1 * (x 1).val = (x 1).val; rw [e1]; omega

theorem iblk0_3_eq (c : Dev nD) (t : Fin cfg0.N) : (iblk0 V c 3 t : Vec Ideal S1x128 .f32) = arr0_3 V c := by
  obtain ⟨-, -, -, -, -, -, -, -, e0, e1, -⟩ := win0_idx t
  funext x
  unfold iblk0
  rw [View.read_apply]
  show V c (Pipeline.arrRef spec0 3) _ = V c (Pipeline.arrRef spec0 3) _
  congr 1
  funext a
  apply Fin.ext
  match a with
  | ⟨0, _⟩ => show win0_3.index t (0 : Fin 2) * 1 + 1 * (x 0).val = (x 0).val; rw [e0]; omega
  | ⟨1, _⟩ => show win0_3.index t (1 : Fin 2) * 128 + 1 * (x 1).val = (x 1).val; rw [e1]; omega

theorem iblk0_4_eq (c : Dev nD) (t : Fin cfg0.N) : (iblk0 V c 4 t : Vec Ideal S128x128 .f32) = arr0_4 V c := by
  obtain ⟨-, -, -, -, -, -, -, -, -, -, e0, e1, -⟩ := win0_idx t
  funext x
  unfold iblk0
  rw [View.read_apply]
  show V c (Pipeline.arrRef spec0 4) _ = V c (Pipeline.arrRef spec0 4) _
  congr 1
  funext a
  apply Fin.ext
  match a with
  | ⟨0, _⟩ => show win0_4.index t (0 : Fin 2) * 128 + 1 * (x 0).val = (x 0).val; rw [e0]; omega
  | ⟨1, _⟩ => show win0_4.index t (1 : Fin 2) * 128 + 1 * (x 1).val = (x 1).val; rw [e1]; omega

theorem iblk0_5_eq (c : Dev nD) (t : Fin cfg0.N) : (iblk0 V c 5 t : Vec Ideal S1x128 .f32) = arr0_5 V c := by
  obtain ⟨-, -, -, -, -, -, -, -, -, -, -, -, e0, e1⟩ := win0_idx t
  funext x
  unfold iblk0
  rw [View.read_apply]
  show V c (Pipeline.arrRef spec0 5) _ = V c (Pipeline.arrRef spec0 5) _
  congr 1
  funext a
  apply Fin.ext
  match a with
  | ⟨0, _⟩ => show win0_5.index t (0 : Fin 2) * 1 + 1 * (x 0).val = (x 0).val; rw [e0]; omega
  | ⟨1, _⟩ => show win0_5.index t (1 : Fin 2) * 128 + 1 * (x 1).val = (x 1).val; rw [e1]; omega

/-! ## What a point writes back -/

/-- The layer's value at array row `r` from the blocks' contents, when the blocks are the arrays' rows. -/
theorem out0_6_eq_layer (x0 x1 : Vec Ideal S5000x128 .f32) (x2 : Vec Ideal S128x128 .f32) (x3 : Vec Ideal S1x128 .f32)
    (x4 : Vec Ideal S128x128 .f32) (x5 : Vec Ideal S1x128 .f32)
    (X0 X1 : Vec Ideal S50000x128 .f32) (X2 : Vec Ideal S128x128 .f32) (X3 : Vec Ideal S1x128 .f32)
    (X4 : Vec Ideal S128x128 .f32) (X5 : Vec Ideal S1x128 .f32) (p : Fin 5000) (q : Fin 128) (r : Fin 50000)
    (h0 : ∀ k : Fin 128, x0 (ix2 p k) = X0 (ix2 r k)) (h1 : ∀ k : Fin 128, x1 (ix2 p k) = X1 (ix2 r k))
    (h2 : x2 = X2) (h3 : x3 = X3) (h4 : x4 = X4) (h5 : x5 = X5) :
    out0_6 (F := Ideal) x0 x1 x2 x3 x4 x5 (ix2 p q) = Cert.Spec.layerArr X0 X1 X2 X3 X4 X5 (ix2 r q) := by
  subst h2 h3 h4 h5
  rw [out0_6_apply]
  show _ = Cert.Spec.mlpAt (fun k' => X0 (ix2 r k') + X1 (ix2 r k')) (fun k' k => x2 (ix2 k' k)) (fun k => x3 (ix2 (0 : Fin 1) k))
      (fun k q' => x4 (ix2 k q')) (fun q' => x5 (ix2 (0 : Fin 1) q')) q
  congr 1
  funext k'
  rw [h0, h1]

/-- What point `t` writes back is block `t` of the layer of the six arrays as the region finds them. -/
theorem dat0_flushed_6 (c : Dev nD) (t : Fin cfg0.N) :
    (dat0 (F := Ideal) V c).flushed 6 t = ((cfg0.win 6).blk t).view.read (Elt Ideal)
      (Cert.Spec.layerArr (arr0_0 V c) (arr0_1 V c) (arr0_2 V c) (arr0_3 V c) (arr0_4 V c) (arr0_5 V c)) := by
  show (cfg0.win 6).cut (grid0.coords t) ((dat0 V c).after 6 t) = _
  rw [after0_6]
  obtain ⟨e0, e1, -⟩ := win0_idx t
  have hN : t.val < 10 := by have h := t.isLt; have e : cfg0.N = 10 := N_0; omega
  funext y
  obtain ⟨p, q, rfl⟩ : ∃ (p : Fin 5000) (q : Fin 128), y = ix2 p q := ⟨y 0, y 1, eq_ix2 y⟩
  have hemb : ((cfg0.win 6).blk t).view.emb (ix2 p q) = ix2 (⟨5000 * t.val + p.val, by have := p.isLt; omega⟩ : Fin 50000) q := by
    funext a
    apply Fin.ext
    match a with
    | ⟨0, _⟩ => show win0_6.index t (0 : Fin 2) * 5000 + 1 * p.val = 5000 * t.val + p.val; rw [e0]; omega
    | ⟨1, _⟩ => show win0_6.index t (1 : Fin 2) * 128 + 1 * q.val = q.val; rw [e1]; omega
  rw [View.read_apply, hemb]
  exact out0_6_eq_layer (iblk0 V c 0 t) (iblk0 V c 1 t) (iblk0 V c 2 t) (iblk0 V c 3 t) (iblk0 V c 4 t) (iblk0 V c 5 t)
    (arr0_0 V c) (arr0_1 V c) (arr0_2 V c) (arr0_3 V c) (arr0_4 V c) (arr0_5 V c) p q ⟨5000 * t.val + p.val, by have := p.isLt; omega⟩
    (fun k => iblk0_0_apply V c t p k _ rfl) (fun k => iblk0_1_apply V c t p k _ rfl)
    (iblk0_2_eq V c t) (iblk0_3_eq V c t) (iblk0_4_eq V c t) (iblk0_5_eq V c t)

/-! ## The cover, and the array after the region -/

/-- An index of the output array is in point `t`'s block iff each coordinate is in the block's range on its axis. -/
theorem win0_6_mem_blk (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole (Pipeline.arrRef spec0 6)).slice (win0_6.rect t)).set ↔ _
  rw [View.set_slice_whole, Rect.mem_set_unit]
  exact Iff.rfl

/-- Every row of the output array lies in some point's block: row `r` in that of point `r / 5000`. -/
theorem win0_6_cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨e0, e1, -⟩ := win0_idx t
  refine ⟨t, flush0_6 t, ?_⟩
  rw [win0_6_mem_blk]
  intro a
  match a with
  | ⟨0, _⟩ => show win0_6.index t (0 : Fin 2) * 5000 ≤ (i 0).val ∧ (i 0).val < win0_6.index t (0 : Fin 2) * 5000 + 5000; rw [e0, ht]; omega
  | ⟨1, _⟩ => show win0_6.index t (1 : Fin 2) * 128 ≤ (i 1).val ∧ (i 1).val < win0_6.index t (1 : Fin 2) * 128 + 128; rw [e1]; omega

/-- The output array after the region: the layer of the six input arrays as the region found them. -/
theorem final0_6 (c : Dev nD) : (dat0 (F := Ideal) V c).arrAt 6 cfg0.N = Cert.Spec.layerArr (arr0_0 V c) (arr0_1 V c) (arr0_2 V c) (arr0_3 V c) (arr0_4 V c) (arr0_5 V c) :=
  (dat0 (F := Ideal) V c).arrAt_eq_of_cover 6 (Cert.Spec.layerArr (arr0_0 V c) (arr0_1 V c) (arr0_2 V c) (arr0_3 V c) (arr0_4 V c) (arr0_5 V c))
    (fun t _ => dat0_flushed_6 V c t) win0_6_cover

end Cert.KernelIdeal.Hand

end
-- ==== Proof.RegionValue1.lean ====
/-
  From blocks to the array, for the second layer's region.  The region's pipeline visits ten grid points; at point `t`
  the output window holds rows `5000 t … 5000 t + 4999` of the 50000 × 128 result, the two activation windows hold the
  same rows of their arrays, and the two weight matrices and two bias rows are held whole at every point.  The body
  leaves in the output block, at row `p` and feature `q`, the perceptron's number for row `p` of the sum of the two
  activation blocks; that row is row `5000 t + p` of the sum of the two activation arrays, so what point `t` writes
  back is block `t` of ONE function of the six arrays, the layer on whole arrays.  Every row `r` of the result lies
  in the block of point `r / 5000`, so after the ten points the result array is that function.
-/
import proofs.«115844_j7438883357611_1_alg».proof.Proof.Region1
import proofs.«115844_j7438883357611_1_alg».proof.Proof.KernelPayload
import proofs.«115844_j7438883357611_1_alg».proof.Proof.Spec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

-- the core's buffer contents when the region is entered, over the extended reals
variable (V : (c : Dev nD) → (b : Ref sig .tc) → Buf (Elt Ideal) ((c : Thread nD τ).loc b))

/-! ## The arrays and the index maps -/

/-- the six input arrays of the region at their literal types -/
abbrev arr1_0 (c : Dev nD) : Vec Ideal S50000x128 .f32 := V c (Pipeline.arrRef spec1 0)
abbrev arr1_1 (c : Dev nD) : Vec Ideal S50000x128 .f32 := V c (Pipeline.arrRef spec1 1)
abbrev arr1_2 (c : Dev nD) : Vec Ideal S128x128 .f32 := V c (Pipeline.arrRef spec1 2)
abbrev arr1_3 (c : Dev nD) : Vec Ideal S1x128 .f32 := V c (Pipeline.arrRef spec1 3)
abbrev arr1_4 (c : Dev nD) : Vec Ideal S128x128 .f32 := V c (Pipeline.arrRef spec1 4)
abbrev arr1_5 (c : Dev nD) : Vec Ideal S1x128 .f32 := V c (Pipeline.arrRef spec1 5)

/-- The index maps over the grid: the output and the two activations are at block (t, 0) at point `t`; the weights
    and the bias rows stay at block (0, 0). -/
theorem win1_idx : ∀ t : Fin cfg1.N,
    win1_6.index t (0 : Fin 2) = t.val ∧ win1_6.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-! ## The output block at an index -/

theorem out1_6_hz : (![0, 0] : Fin 2 → Nat) = fun _ => 0 := funext fun a => by fin_cases a <;> rfl

/-- What the body leaves in the output block, at row `p` and feature `q`: the perceptron's number for row `p` of
    the sum of the two activation blocks. -/
theorem out1_6_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    out1_6 (F := Ideal) x0 x1 x2 x3 x4 x5 (ix2 p q)
      = Cert.Spec.mlpAt (fun k' => x0 (ix2 p k') + x1 (ix2 p k')) (fun k' k => x2 (ix2 k' k)) (fun k => x3 (ix2 (0 : Fin 1) k))
          (fun k q' => x4 (ix2 k q')) (fun q' => x5 (ix2 (0 : Fin 1) q')) q := by
  unfold out1_6
  rw [View.canon_unit_zero out1_6_hz]
  simp only [View.ld_unit_zero (S := S5000x128) out1_6_hz, View.ld_unit_zero (S := S128x128) out1_6_hz, View.ld_unit_zero (S := S1x128) out1_6_hz]
  exact Cert.KernelIdeal.Pay.k1_pay1_apply x0 x1 x2 x3 x4 x5 p q

/-! ## The input blocks as parts of their arrays -/

/-- A row-tiled input's block at point `t`, read at row `p` of the block, is the array at row `5000 t + p`. -/
theorem iblk1_0_apply (c : Dev nD) (t : Fin cfg1.N) (p : Fin 5000) (k : Fin 128) (r : Fin 50000) (hr : r.val = 5000 * t.val + p.val) :
    (iblk1 V c 0 t : Vec Ideal S5000x128 .f32) (ix2 p k) = arr1_0 V c (ix2 r k) := by
  obtain ⟨-, -, e0, e1, -⟩ := win1_idx t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

theorem iblk1_1_apply (c : Dev nD) (t : Fin cfg1.N) (p : Fin 5000) (k : Fin 128) (r : Fin 50000) (hr : r.val = 5000 * t.val + p.val) :
    (iblk1 V c 1 t : Vec Ideal S5000x128 .f32) (ix2 p k) = arr1_1 V c (ix2 r k) := by
  obtain ⟨-, -, -, -, e0, e1, -⟩ := win1_idx t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 5000 + 1 * p.val = r.val; rw [e0, hr]; omega
  | ⟨1, _⟩ => show win1_1.index t (1 : Fin 2) * 128 + 1 * k.val = k.val; rw [e1]; omega

/-- A whole-array window's block is its array, at every point. -/
theorem iblk1_2_eq (c : Dev nD) (t : Fin cfg1.N) : (iblk1 V c 2 t : Vec Ideal S128x128 .f32) = arr1_2 V c := by
  obtain ⟨-, -, -, -, -, -, e0, e1, -⟩ := win1_idx t
  funext x
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 128 + 1 * (x 0).val = (x 0).val; rw [e0]; omega
  | ⟨1, _⟩ => show win1_2.index t (1 : Fin 2) * 128 + 1 * (x 1).val = (x 1).val; rw [e1]; omega

theorem iblk1_3_eq (c : Dev nD) (t : Fin cfg1.N) : (iblk1 V c 3 t : Vec Ideal S1x128 .f32) = arr1_3 V c := by
  obtain ⟨-, -, -, -, -, -, -, -, e0, e1, -⟩ := win1_idx t
  funext x
  unfold iblk1
  rw [View.read_apply]
  show V c (Pipeline.arrRef spec1 3) _ = V c (Pipeline.arrRef spec1 3) _
  congr 1
  funext a
  apply Fin.ext
  match a with
  | ⟨0, _⟩ => show win1_3.index t (0 : Fin 2) * 1 + 1 * (x 0).val = (x 0).val; rw [e0]; omega
  | ⟨1, _⟩ => show win1_3.index t (1 : Fin 2) * 128 + 1 * (x 1).val = (x 1).val; rw [e1]; omega

theorem iblk1_4_eq (c : Dev nD) (t : Fin cfg1.N) : (iblk1 V c 4 t : Vec Ideal S128x128 .f32) = arr1_4 V c := by
  obtain ⟨-, -, -, -, -, -, -, -, -, -, e0, e1, -⟩ := win1_idx t
  funext x
  unfold iblk1
  rw [View.read_apply]
  show V c (Pipeline.arrRef spec1 4) _ = V c (Pipeline.arrRef spec1 4) _
  congr 1
  funext a
  apply Fin.ext
  match a with
  | ⟨0, _⟩ => show win1_4.index t (0 : Fin 2) * 128 + 1 * (x 0).val = (x 0).val; rw [e0]; omega
  | ⟨1, _⟩ => show win1_4.index t (1 : Fin 2) * 128 + 1 * (x 1).val = (x 1).val; rw [e1]; omega

theorem iblk1_5_eq (c : Dev nD) (t : Fin cfg1.N) : (iblk1 V c 5 t : Vec Ideal S1x128 .f32) = arr1_5 V c := by
  obtain ⟨-, -, -, -, -, -, -, -, -, -, -, -, e0, e1⟩ := win1_idx t
  funext x
  unfold iblk1
  rw [View.read_apply]
  show V c (Pipeline.arrRef spec1 5) _ = V c (Pipeline.arrRef spec1 5) _
  congr 1
  funext a
  apply Fin.ext
  match a with
  | ⟨0, _⟩ => show win1_5.index t (0 : Fin 2) * 1 + 1 * (x 0).val = (x 0).val; rw [e0]; omega
  | ⟨1, _⟩ => show win1_5.index t (1 : Fin 2) * 128 + 1 * (x 1).val = (x 1).val; rw [e1]; omega

/-! ## What a point writes back -/

/-- The layer's value at array row `r` from the blocks' contents, when the blocks are the arrays' rows. -/
theorem out1_6_eq_layer (x0 x1 : Vec Ideal S5000x128 .f32) (x2 : Vec Ideal S128x128 .f32) (x3 : Vec Ideal S1x128 .f32)
    (x4 : Vec Ideal S128x128 .f32) (x5 : Vec Ideal S1x128 .f32)
    (X0 X1 : Vec Ideal S50000x128 .f32) (X2 : Vec Ideal S128x128 .f32) (X3 : Vec Ideal S1x128 .f32)
    (X4 : Vec Ideal S128x128 .f32) (X5 : Vec Ideal S1x128 .f32) (p : Fin 5000) (q : Fin 128) (r : Fin 50000)
    (h0 : ∀ k : Fin 128, x0 (ix2 p k) = X0 (ix2 r k)) (h1 : ∀ k : Fin 128, x1 (ix2 p k) = X1 (ix2 r k))
    (h2 : x2 = X2) (h3 : x3 = X3) (h4 : x4 = X4) (h5 : x5 = X5) :
    out1_6 (F := Ideal) x0 x1 x2 x3 x4 x5 (ix2 p q) = Cert.Spec.layerArr X0 X1 X2 X3 X4 X5 (ix2 r q) := by
  subst h2 h3 h4 h5
  rw [out1_6_apply]
  show _ = Cert.Spec.mlpAt (fun k' => X0 (ix2 r k') + X1 (ix2 r k')) (fun k' k => x2 (ix2 k' k)) (fun k => x3 (ix2 (0 : Fin 1) k))
      (fun k q' => x4 (ix2 k q')) (fun q' => x5 (ix2 (0 : Fin 1) q')) q
  congr 1
  funext k'
  rw [h0, h1]

/-- What point `t` writes back is block `t` of the layer of the six arrays as the region finds them. -/
theorem dat1_flushed_6 (c : Dev nD) (t : Fin cfg1.N) :
    (dat1 (F := Ideal) V c).flushed 6 t = ((cfg1.win 6).blk t).view.read (Elt Ideal)
      (Cert.Spec.layerArr (arr1_0 V c) (arr1_1 V c) (arr1_2 V c) (arr1_3 V c) (arr1_4 V c) (arr1_5 V c)) := by
  show (cfg1.win 6).cut (grid1.coords t) ((dat1 V c).after 6 t) = _
  rw [after1_6]
  obtain ⟨e0, e1, -⟩ := win1_idx t
  have hN : t.val < 10 := by have h := t.isLt; have e : cfg1.N = 10 := N_1; omega
  funext y
  obtain ⟨p, q, rfl⟩ : ∃ (p : Fin 5000) (q : Fin 128), y = ix2 p q := ⟨y 0, y 1, eq_ix2 y⟩
  have hemb : ((cfg1.win 6).blk t).view.emb (ix2 p q) = ix2 (⟨5000 * t.val + p.val, by have := p.isLt; omega⟩ : Fin 50000) q := by
    funext a
    apply Fin.ext
    match a with
    | ⟨0, _⟩ => show win1_6.index t (0 : Fin 2) * 5000 + 1 * p.val = 5000 * t.val + p.val; rw [e0]; omega
    | ⟨1, _⟩ => show win1_6.index t (1 : Fin 2) * 128 + 1 * q.val = q.val; rw [e1]; omega
  rw [View.read_apply, hemb]
  exact out1_6_eq_layer (iblk1 V c 0 t) (iblk1 V c 1 t) (iblk1 V c 2 t) (iblk1 V c 3 t) (iblk1 V c 4 t) (iblk1 V c 5 t)
    (arr1_0 V c) (arr1_1 V c) (arr1_2 V c) (arr1_3 V c) (arr1_4 V c) (arr1_5 V c) p q ⟨5000 * t.val + p.val, by have := p.isLt; omega⟩
    (fun k => iblk1_0_apply V c t p k _ rfl) (fun k => iblk1_1_apply V c t p k _ rfl)
    (iblk1_2_eq V c t) (iblk1_3_eq V c t) (iblk1_4_eq V c t) (iblk1_5_eq V c t)

/-! ## The cover, and the array after the region -/

/-- An index of the output array is in point `t`'s block iff each coordinate is in the block's range on its axis. -/
theorem win1_6_mem_blk (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole (Pipeline.arrRef spec1 6)).slice (win1_6.rect t)).set ↔ _
  rw [View.set_slice_whole, Rect.mem_set_unit]
  exact Iff.rfl

/-- Every row of the output array lies in some point's block: row `r` in that of point `r / 5000`. -/
theorem win1_6_cover (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨e0, e1, -⟩ := win1_idx t
  refine ⟨t, flush1_6 t, ?_⟩
  rw [win1_6_mem_blk]
  intro a
  match a with
  | ⟨0, _⟩ => show win1_6.index t (0 : Fin 2) * 5000 ≤ (i 0).val ∧ (i 0).val < win1_6.index t (0 : Fin 2) * 5000 + 5000; rw [e0, ht]; omega
  | ⟨1, _⟩ => show win1_6.index t (1 : Fin 2) * 128 ≤ (i 1).val ∧ (i 1).val < win1_6.index t (1 : Fin 2) * 128 + 128; rw [e1]; omega

/-- The output array after the region: the layer of the six input arrays as the region found them. -/
theorem final1_6 (c : Dev nD) : (dat1 (F := Ideal) V c).arrAt 6 cfg1.N = Cert.Spec.layerArr (arr1_0 V c) (arr1_1 V c) (arr1_2 V c) (arr1_3 V c) (arr1_4 V c) (arr1_5 V c) :=
  (dat1 (F := Ideal) V c).arrAt_eq_of_cover 6 (Cert.Spec.layerArr (arr1_0 V c) (arr1_1 V c) (arr1_2 V c) (arr1_3 V c) (arr1_4 V c) (arr1_5 V c))
    (fun t _ => dat1_flushed_6 V c t) win1_6_cover

end Cert.KernelIdeal.Hand

end
-- ==== Proof.RegionValue2.lean ====
/-
  From blocks to the array, for the third layer's region.  The region's pipeline visits ten grid points; at point `t`
  the output window holds rows `5000 t … 5000 t + 4999` of the 50000 × 128 result, the two activation windows hold the
  same rows of their arrays, and the two weight matrices and two bias rows are held whole at every point.  The body
  leaves in the output block, at row `p` and feature `q`, the perceptron's number for row `p` of the sum of the two
  activation blocks; that row is row `5000 t + p` of the sum of the two activation arrays, so what point `t` writes
  back is block `t` of ONE function of the six arrays, the layer on whole arrays.  Every row `r` of the result lies
  in the block of point `r / 5000`, so after the ten points the result array is that function.
-/
import proofs.«115844_j7438883357611_1_alg».proof.Proof.Region2
import proofs.«115844_j7438883357611_1_alg».proof.Proof.KernelPayload
import proofs.«115844_j7438883357611_1_alg».proof.Proof.Spec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

-- the core's buffer contents when the region is entered, over the extended reals
variable (V : (c : Dev nD) → (b : Ref sig .tc) → Buf (Elt Ideal) ((c : Thread nD τ).loc b))

/-! ## The arrays and the index maps -/

/-- the six input arrays of the region at their literal types -/
abbrev arr2_0 (c : Dev nD) : Vec Ideal S50000x128 .f32 := V c (Pipeline.arrRef spec2 0)
abbrev arr2_1 (c : Dev nD) : Vec Ideal S50000x128 .f32 := V c (Pipeline.arrRef spec2 1)
abbrev arr2_2 (c : Dev nD) : Vec Ideal S128x128 .f32 := V c (Pipeline.arrRef spec2 2)
abbrev arr2_3 (c : Dev nD) : Vec Ideal S1x128 .f32 := V c (Pipeline.arrRef spec2 3)
abbrev arr2_4 (c : Dev nD) : Vec Ideal S128x128 .f32 := V c (Pipeline.arrRef spec2 4)
abbrev arr2_5 (c : Dev nD) : Vec Ideal S1x128 .f32 := V c (Pipeline.arrRef spec2 5)

/-- The index maps over the grid: the output and the two activations are at block (t, 0) at point `t`; the weights
    and the bias rows stay at block (0, 0). -/
theorem win2_idx : ∀ t : Fin cfg2.N,
    win2_6.index t (0 : Fin 2) = t.val ∧ win2_6.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-! ## The output block at an index -/

theorem out2_6_hz : (![0, 0] : Fin 2 → Nat) = fun _ => 0 := funext fun a => by fin_cases a <;> rfl

/-- What the body leaves in the output block, at row `p` and feature `q`: the perceptron's number for row `p` of
    the sum of the two activation blocks. -/
theorem out2_6_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    out2_6 (F := Ideal) x0 x1 x2 x3 x4 x5 (ix2 p q)
      = Cert.Spec.mlpAt (fun k' => x0 (ix2 p k') + x1 (ix2 p k')) (fun k' k => x2 (ix2 k' k)) (fun k => x3 (ix2 (0 : Fin 1) k))
          (fun k q' => x4 (ix2 k q')) (fun q' => x5 (ix2 (0 : Fin 1) q')) q := by
  unfold out2_6
  rw [View.canon_unit_zero out2_6_hz]
  simp only [View.ld_unit_zero (S := S5000x128) out2_6_hz, View.ld_unit_zero (S := S128x128) out2_6_hz, View.ld_unit_zero (S := S1x128) out2_6_hz]
  exact Cert.KernelIdeal.Pay.k2_pay1_apply x0 x1 x2 x3 x4 x5 p q

/-! ## The input blocks as parts of their arrays -/

/-- A row-tiled input's block at point `t`, read at row `p` of the block, is the array at row `5000 t + p`. -/
theorem iblk2_0_apply (c : Dev nD) (t : Fin cfg2.N) (p : Fin 5000) (k : Fin 128) (r : Fin 50000) (hr : r.val = 5000 * t.val + p.val) :
    (iblk2 V c 0 t : Vec Ideal S5000x128 .f32) (ix2 p k) = arr2_0 V c (ix2 r k) := by
  obtain ⟨-, -, e0, e1, -⟩ := win2_idx t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

theorem iblk2_1_apply (c : Dev nD) (t : Fin cfg2.N) (p : Fin 5000) (k : Fin 128) (r : Fin 50000) (hr : r.val = 5000 * t.val + p.val) :
    (iblk2 V c 1 t : Vec Ideal S5000x128 .f32) (ix2 p k) = arr2_1 V c (ix2 r k) := by
  obtain ⟨-, -, -, -, e0, e1, -⟩ := win2_idx t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 5000 + 1 * p.val = r.val; rw [e0, hr]; omega
  | ⟨1, _⟩ => show win2_1.index t (1 : Fin 2) * 128 + 1 * k.val = k.val; rw [e1]; omega

/-- A whole-array window's block is its array, at every point. -/
theorem iblk2_2_eq (c : Dev nD) (t : Fin cfg2.N) : (iblk2 V c 2 t : Vec Ideal S128x128 .f32) = arr2_2 V c := by
  obtain ⟨-, -, -, -, -, -, e0, e1, -⟩ := win2_idx t
  funext x
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 128 + 1 * (x 0).val = (x 0).val; rw [e0]; omega
  | ⟨1, _⟩ => show win2_2.index t (1 : Fin 2) * 128 + 1 * (x 1).val = (x 1).val; rw [e1]; omega

theorem iblk2_3_eq (c : Dev nD) (t : Fin cfg2.N) : (iblk2 V c 3 t : Vec Ideal S1x128 .f32) = arr2_3 V c := by
  obtain ⟨-, -, -, -, -, -, -, -, e0, e1, -⟩ := win2_idx t
  funext x
  unfold iblk2
  rw [View.read_apply]
  show V c (Pipeline.arrRef spec2 3) _ = V c (Pipeline.arrRef spec2 3) _
  congr 1
  funext a
  apply Fin.ext
  match a with
  | ⟨0, _⟩ => show win2_3.index t (0 : Fin 2) * 1 + 1 * (x 0).val = (x 0).val; rw [e0]; omega
  | ⟨1, _⟩ => show win2_3.index t (1 : Fin 2) * 128 + 1 * (x 1).val = (x 1).val; rw [e1]; omega

theorem iblk2_4_eq (c : Dev nD) (t : Fin cfg2.N) : (iblk2 V c 4 t : Vec Ideal S128x128 .f32) = arr2_4 V c := by
  obtain ⟨-, -, -, -, -, -, -, -, -, -, e0, e1, -⟩ := win2_idx t
  funext x
  unfold iblk2
  rw [View.read_apply]
  show V c (Pipeline.arrRef spec2 4) _ = V c (Pipeline.arrRef spec2 4) _
  congr 1
  funext a
  apply Fin.ext
  match a with
  | ⟨0, _⟩ => show win2_4.index t (0 : Fin 2) * 128 + 1 * (x 0).val = (x 0).val; rw [e0]; omega
  | ⟨1, _⟩ => show win2_4.index t (1 : Fin 2) * 128 + 1 * (x 1).val = (x 1).val; rw [e1]; omega

theorem iblk2_5_eq (c : Dev nD) (t : Fin cfg2.N) : (iblk2 V c 5 t : Vec Ideal S1x128 .f32) = arr2_5 V c := by
  obtain ⟨-, -, -, -, -, -, -, -, -, -, -, -, e0, e1⟩ := win2_idx t
  funext x
  unfold iblk2
  rw [View.read_apply]
  show V c (Pipeline.arrRef spec2 5) _ = V c (Pipeline.arrRef spec2 5) _
  congr 1
  funext a
  apply Fin.ext
  match a with
  | ⟨0, _⟩ => show win2_5.index t (0 : Fin 2) * 1 + 1 * (x 0).val = (x 0).val; rw [e0]; omega
  | ⟨1, _⟩ => show win2_5.index t (1 : Fin 2) * 128 + 1 * (x 1).val = (x 1).val; rw [e1]; omega

/-! ## What a point writes back -/

/-- The layer's value at array row `r` from the blocks' contents, when the blocks are the arrays' rows. -/
theorem out2_6_eq_layer (x0 x1 : Vec Ideal S5000x128 .f32) (x2 : Vec Ideal S128x128 .f32) (x3 : Vec Ideal S1x128 .f32)
    (x4 : Vec Ideal S128x128 .f32) (x5 : Vec Ideal S1x128 .f32)
    (X0 X1 : Vec Ideal S50000x128 .f32) (X2 : Vec Ideal S128x128 .f32) (X3 : Vec Ideal S1x128 .f32)
    (X4 : Vec Ideal S128x128 .f32) (X5 : Vec Ideal S1x128 .f32) (p : Fin 5000) (q : Fin 128) (r : Fin 50000)
    (h0 : ∀ k : Fin 128, x0 (ix2 p k) = X0 (ix2 r k)) (h1 : ∀ k : Fin 128, x1 (ix2 p k) = X1 (ix2 r k))
    (h2 : x2 = X2) (h3 : x3 = X3) (h4 : x4 = X4) (h5 : x5 = X5) :
    out2_6 (F := Ideal) x0 x1 x2 x3 x4 x5 (ix2 p q) = Cert.Spec.layerArr X0 X1 X2 X3 X4 X5 (ix2 r q) := by
  subst h2 h3 h4 h5
  rw [out2_6_apply]
  show _ = Cert.Spec.mlpAt (fun k' => X0 (ix2 r k') + X1 (ix2 r k')) (fun k' k => x2 (ix2 k' k)) (fun k => x3 (ix2 (0 : Fin 1) k))
      (fun k q' => x4 (ix2 k q')) (fun q' => x5 (ix2 (0 : Fin 1) q')) q
  congr 1
  funext k'
  rw [h0, h1]

/-- What point `t` writes back is block `t` of the layer of the six arrays as the region finds them. -/
theorem dat2_flushed_6 (c : Dev nD) (t : Fin cfg2.N) :
    (dat2 (F := Ideal) V c).flushed 6 t = ((cfg2.win 6).blk t).view.read (Elt Ideal)
      (Cert.Spec.layerArr (arr2_0 V c) (arr2_1 V c) (arr2_2 V c) (arr2_3 V c) (arr2_4 V c) (arr2_5 V c)) := by
  show (cfg2.win 6).cut (grid2.coords t) ((dat2 V c).after 6 t) = _
  rw [after2_6]
  obtain ⟨e0, e1, -⟩ := win2_idx t
  have hN : t.val < 10 := by have h := t.isLt; have e : cfg2.N = 10 := N_2; omega
  funext y
  obtain ⟨p, q, rfl⟩ : ∃ (p : Fin 5000) (q : Fin 128), y = ix2 p q := ⟨y 0, y 1, eq_ix2 y⟩
  have hemb : ((cfg2.win 6).blk t).view.emb (ix2 p q) = ix2 (⟨5000 * t.val + p.val, by have := p.isLt; omega⟩ : Fin 50000) q := by
    funext a
    apply Fin.ext
    match a with
    | ⟨0, _⟩ => show win2_6.index t (0 : Fin 2) * 5000 + 1 * p.val = 5000 * t.val + p.val; rw [e0]; omega
    | ⟨1, _⟩ => show win2_6.index t (1 : Fin 2) * 128 + 1 * q.val = q.val; rw [e1]; omega
  rw [View.read_apply, hemb]
  exact out2_6_eq_layer (iblk2 V c 0 t) (iblk2 V c 1 t) (iblk2 V c 2 t) (iblk2 V c 3 t) (iblk2 V c 4 t) (iblk2 V c 5 t)
    (arr2_0 V c) (arr2_1 V c) (arr2_2 V c) (arr2_3 V c) (arr2_4 V c) (arr2_5 V c) p q ⟨5000 * t.val + p.val, by have := p.isLt; omega⟩
    (fun k => iblk2_0_apply V c t p k _ rfl) (fun k => iblk2_1_apply V c t p k _ rfl)
    (iblk2_2_eq V c t) (iblk2_3_eq V c t) (iblk2_4_eq V c t) (iblk2_5_eq V c t)

/-! ## The cover, and the array after the region -/

/-- An index of the output array is in point `t`'s block iff each coordinate is in the block's range on its axis. -/
theorem win2_6_mem_blk (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole (Pipeline.arrRef spec2 6)).slice (win2_6.rect t)).set ↔ _
  rw [View.set_slice_whole, Rect.mem_set_unit]
  exact Iff.rfl

/-- Every row of the output array lies in some point's block: row `r` in that of point `r / 5000`. -/
theorem win2_6_cover (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨e0, e1, -⟩ := win2_idx t
  refine ⟨t, flush2_6 t, ?_⟩
  rw [win2_6_mem_blk]
  intro a
  match a with
  | ⟨0, _⟩ => show win2_6.index t (0 : Fin 2) * 5000 ≤ (i 0).val ∧ (i 0).val < win2_6.index t (0 : Fin 2) * 5000 + 5000; rw [e0, ht]; omega
  | ⟨1, _⟩ => show win2_6.index t (1 : Fin 2) * 128 ≤ (i 1).val ∧ (i 1).val < win2_6.index t (1 : Fin 2) * 128 + 128; rw [e1]; omega

/-- The output array after the region: the layer of the six input arrays as the region found them. -/
theorem final2_6 (c : Dev nD) : (dat2 (F := Ideal) V c).arrAt 6 cfg2.N = Cert.Spec.layerArr (arr2_0 V c) (arr2_1 V c) (arr2_2 V c) (arr2_3 V c) (arr2_4 V c) (arr2_5 V c) :=
  (dat2 (F := Ideal) V c).arrAt_eq_of_cover 6 (Cert.Spec.layerArr (arr2_0 V c) (arr2_1 V c) (arr2_2 V c) (arr2_3 V c) (arr2_4 V c) (arr2_5 V c))
    (fun t _ => dat2_flushed_6 V c t) win2_6_cover

end Cert.KernelIdeal.Hand

end
-- ==== Proof.KernelFinal.lean ====
/-
  The kernel's result over the extended reals, and that it is the reference's.

  Each region's output array is the layer function `layerArr` of the six arrays the region is entered with (the
  blocks-to-array step); those six are the node features or the previous region's output, its neighbour sum, and the
  layer's slices of the weights and biases (the host stretches).  A layer on bias ROWS is the reference's layer on
  bias VECTORS: entry by entry both are the same number `mlpAt`, a 128-vector reshaped to 1 × 128 read at (0, k)
  being the vector at k.  So the three output arrays are the reference's three layer outputs, and the result — the
  four arrays side by side, rows summed into segments — is the reference's result.
-/
import proofs.«115844_j7438883357611_1_alg».proof.Proof.KernelTerms
import proofs.«115844_j7438883357611_1_alg».proof.Proof.RegionValue0
import proofs.«115844_j7438883357611_1_alg».proof.Proof.RegionValue1
import proofs.«115844_j7438883357611_1_alg».proof.Proof.RegionValue2
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx
open Cert.ReferenceIdeal.Whole (agg final L1 L2 L3)
open Cert.ReferenceIdeal.Layer (refLayer refLayer_apply)
open Cert.ReferenceIdeal.Read (val_main_v16 val_main_v19 val_main_v25 val_main_v28 val_main_v44 val_main_v47 val_main_v53 val_main_v56 val_main_v72 val_main_v75 val_main_v81 val_main_v84 val_main_v91 val_main_v91_eq)

/-- A 128-vector reshaped to a 1 × 128 row, read at (0, k), is the vector at k. -/
theorem row_apply (b : Vec Ideal S128 .f32) (k : Fin 128) :
    shapeCast S1x128 b shapeCasts_S128_S1x128 (ix2 (0 : Fin 1) k) = b (ix1 k) :=
  ValueIdx.shapeCast_a_1a_apply b shapeCasts_S128_S1x128 0 k

/-- The layer on bias rows that are reshaped bias vectors is the reference's layer on the vectors: entry by entry
    both are `mlpAt` of the same row, matrices and biases. -/
theorem layerArr_eq_refLayer (h a : Vec Ideal S50000x128 .f32) (w1 : Vec Ideal S128x128 .f32) (b1 : Vec Ideal S128 .f32)
    (w2 : Vec Ideal S128x128 .f32) (b2 : Vec Ideal S128 .f32) :
    Cert.Spec.layerArr h a w1 (shapeCast S1x128 b1 shapeCasts_S128_S1x128) w2 (shapeCast S1x128 b2 shapeCasts_S128_S1x128)
      = refLayer (F := Ideal) h a w1 b1 w2 b2 := by
  funext i
  obtain ⟨r, q, rfl⟩ : ∃ (r : Fin 50000) (q : Fin 128), i = ix2 r q := ⟨i 0, i 1, eq_ix2 i⟩
  rw [refLayer_apply]
  show Cert.Spec.mlpAt (fun k' => h (ix2 r k') + a (ix2 r k')) (fun k' k => w1 (ix2 k' k))
      (fun k => shapeCast S1x128 b1 shapeCasts_S128_S1x128 (ix2 (0 : Fin 1) k)) (fun k q' => w2 (ix2 k q'))
      (fun q' => shapeCast S1x128 b2 shapeCasts_S128_S1x128 (ix2 (0 : Fin 1) q')) q = _
  have e1 : (fun k : Fin 128 => shapeCast S1x128 b1 shapeCasts_S128_S1x128 (ix2 (0 : Fin 1) k)) = fun k => b1 (ix1 k) :=
    funext fun k => row_apply b1 k
  have e2 : (fun k : Fin 128 => shapeCast S1x128 b2 shapeCasts_S128_S1x128 (ix2 (0 : Fin 1) k)) = fun k => b2 (ix1 k) :=
    funext fun k => row_apply b2 k
  rw [e1, e2]

variable (m : (ℓ : Loc nD τ sig) → Buf (Elt Ideal) ℓ) (ρ : Dev nD → PrngReg)

/-- Region 0's output array is the reference's first layer output. -/
theorem out0_eq (c : Dev nD) : W2 m ρ c (Proc.devRef .tc main_v24) = L1 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  refine (W2_arr m ρ c 6).trans ?_
  rw [final0_6 (V1 m ρ) c]
  show Cert.Spec.layerArr (W1 m ρ c (Proc.devRef .tc main_arg0)) (W1 m ρ c (Proc.devRef .tc main_v13)) (W1 m ρ c (Proc.devRef .tc main_v15))
    (W1 m ρ c (Proc.devRef .tc main_v22)) (W1 m ρ c (Proc.devRef .tc main_v19)) (W1 m ρ c (Proc.devRef .tc main_v23)) = _
  rw [W1_arg0 m ρ c, W1_v13 m ρ c, W1_v15 m ρ c, W1_v22 m ρ c, W1_v19 m ρ c, W1_v23 m ρ c]
  exact layerArr_eq_refLayer _ _ _ _ _ _

/-- Region 1's output array is the reference's second layer output. -/
theorem out1_eq (c : Dev nD) : W4 m ρ c (Proc.devRef .tc main_v45) = L2 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  refine (W4_arr m ρ c 6).trans ?_
  rw [final1_6 (V3 m ρ) c]
  show Cert.Spec.layerArr (W3 m ρ c (Proc.devRef .tc main_v24)) (W3 m ρ c (Proc.devRef .tc main_v34)) (W3 m ρ c (Proc.devRef .tc main_v36))
    (W3 m ρ c (Proc.devRef .tc main_v43)) (W3 m ρ c (Proc.devRef .tc main_v40)) (W3 m ρ c (Proc.devRef .tc main_v44)) = _
  rw [W3_v34 m ρ c, W3_v24 m ρ c, W3_v36 m ρ c, W3_v43 m ρ c, W3_v40 m ρ c, W3_v44 m ρ c, out0_eq m ρ c]
  exact layerArr_eq_refLayer _ _ _ _ _ _

/-- Region 2's output array is the reference's third layer output. -/
theorem out2_eq (c : Dev nD) : W6 m ρ c (Proc.devRef .tc main_v66) = L3 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  refine (W6_arr m ρ c 6).trans ?_
  rw [final2_6 (V5 m ρ) c]
  show Cert.Spec.layerArr (W5 m ρ c (Proc.devRef .tc main_v45)) (W5 m ρ c (Proc.devRef .tc main_v55)) (W5 m ρ c (Proc.devRef .tc main_v57))
    (W5 m ρ c (Proc.devRef .tc main_v64)) (W5 m ρ c (Proc.devRef .tc main_v61)) (W5 m ρ c (Proc.devRef .tc main_v65)) = _
  rw [W5_v55 m ρ c, W5_v45 m ρ c, W5_v57 m ρ c, W5_v64 m ρ c, W5_v61 m ρ c, W5_v65 m ρ c, out1_eq m ρ c]
  exact layerArr_eq_refLayer _ _ _ _ _ _

/-- The kernel's result buffer at the end is the reference's result stage of the same arguments. -/
theorem result_eq (c : Dev nD) : W7 m ρ c (Proc.devRef .tc main_v70)
    = val_main_v91 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [W7_v70 m ρ c, out0_eq m ρ c, out1_eq m ρ c, out2_eq m ρ c]
  exact (Cert.ReferenceIdeal.Whole.v91_eq _ _ _ _ _ _ _).symm

/-- The run with the result buffer named: every weakly fair execution ends with the result buffer at the last
    boundary's contents and the arguments as launched. -/
theorem run_value : θ_run defs (onTc (τ := τ) (main (F := Ideal))) ⟨m, fun _ => 0, ρ⟩ (fun r => ∀ c : Dev nD,
      r.2.mem ((c.tc : Thread nD τ).loc main_v70) = W7 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v70 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c)⟩) (run_all m ρ)

end Cert.KernelIdeal.Hand

end
-- ==== Proof.lean ====
/-
  The certificate: a three-layer graph-isomorphism network with segment pooling, its per-layer perceptron run as a
  pipelined kernel over row tiles, against the plain array program.

  Both programs compute, for node features x (50000 × 128), an edge list e and segment ids s,
      out = segsum_s [ x | h₁ | h₂ | h₃ ],   hₗ = relu((hₗ₋₁ + agg(hₗ₋₁, e))·W₁ₗ + b₁ₗ)·W₂ₗ + b₂ₗ,   h₀ = x,
  where agg sums, for every edge, the source row into the destination row.  The gather, the scatter-adds, the slicing
  of the stacked weights and the final join are the SAME host operations in both; only the perceptron differs: the
  kernel computes it one tile of 5000 rows at a time, rounding to a narrower float format on the way into each matrix
  product (the identity over the extended reals), the reference on the whole array.  A row of a matrix product depends
  on that row only, so tile by tile the kernel's output array is the reference's, entry by entry the same sum; no law
  beyond that is used, and the precondition (finite inputs) is never opened.

  * the frames of the two kernel programs: @main threaded as four host stretches around three regions (Thread /
    BitsThread over Region0–2 / BitsRegion0–2), every argument read back unchanged;
  * the reference's frame: its run with the result dropped;
  * nothing was rewritten on the way to the idealized kernel, so there is nothing to preserve;
  * the value claim: the kernel's result buffer at the end of the run is the reference's result stage (KernelFinal).
-/
import proofs.«115844_j7438883357611_1_alg».proof.Defs
import proofs.«115844_j7438883357611_1_alg».proof.Proof.Gen.Kernel
import proofs.«115844_j7438883357611_1_alg».proof.Proof.Gen.KernelIdeal
import proofs.«115844_j7438883357611_1_alg».proof.Proof.Gen.ReferenceIdeal
import proofs.«115844_j7438883357611_1_alg».proof.Proof.Gen.Pre_finite_inputs
import proofs.«115844_j7438883357611_1_alg».proof.Proof.Gen.ReferenceIdeal.Run
import proofs.«115844_j7438883357611_1_alg».proof.Proof.Gen.ReferenceIdeal.Read
import proofs.«115844_j7438883357611_1_alg».proof.Proof.BitsThread
import proofs.«115844_j7438883357611_1_alg».proof.Proof.KernelFinal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, the kernel's run ends with its result buffer at the last boundary's
    contents, the reference's with its result at its composed term; the two are equal (`result_eq`). -/
theorem algebraic : Cert.algebraic_KernelIdeal_ReferenceIdeal := by
  intro m ρ m' ρ' _ hagree
  refine ⟨fun c => Cert.KernelIdeal.Hand.W7 m ρ c (Proc.devRef .tc Cert.KernelIdeal.main_v70), Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v91_eq, (hagree c).1, (hagree c).2.1, (hagree c).2.2.1, (hagree c).2.2.2.1,
    (hagree c).2.2.2.2.1, (hagree c).2.2.2.2.2.1, (hagree c).2.2.2.2.2.2]
  exact (Cert.KernelIdeal.Hand.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
